-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x256 : Shape := ⟨2, ![1000, 256]⟩
abbrev S1200x256 : Shape := ⟨2, ![1200, 256]⟩
abbrev S2000000 : Shape := ⟨1, ![2000000]⟩
abbrev S2x2000000 : Shape := ⟨2, ![2, 2000000]⟩
abbrev S_ : Shape := ⟨0, ![]⟩

class Facts : Prop where
  bcast_S_S1000x256 : S_.BroadcastsInDim S1000x256 (![] : Fin 0 → Fin S1000x256.rank)
  reducesTo_S1000x256_S_d0_1 : S1000x256.ReducesTo [0, 1] S_
  h_S_ : 0 < S_.numel
  bcast_S_S1200x256 : S_.BroadcastsInDim S1200x256 (![] : Fin 0 → Fin S1200x256.rank)
  reducesTo_S1200x256_S_d0_1 : S1200x256.ReducesTo [0, 1] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg3 : IVec S2000000 32) (main_v12 : IVec S_ 1) (main_v15 : IVec S_ 1) : IVec S_ 1 :=
  let main_v16 : IVec S_ 1 := andi main_v12 main_v15
  let main_c_6 : IVec S_ 32 := constantI S_ 32 0#32
  let main_v17 : IVec S2000000 32 := broadcastInDim S2000000 ![] bcast_S_S2000000 main_c_6
  let main_v18 : IVec S2000000 1 := cmpi .sge main_arg3 main_v17
  let main_c_7 : IVec S_ 1 := constantI S_ 1 1#1
  let main_v19 : IVec S_ 1 := (fun x v => Host.reduce IntOp.andi x v reducesTo_S2000000_S_d0 h_S_) main_v18 main_c_7
  let main_v20 : IVec S_ 1 := andi main_v16 main_v19
  let main_c_8 : IVec S_ 32 := constantI S_ 32 1200#32
  let main_v21 : IVec S2000000 32 := broadcastInDim S2000000 ![] bcast_S_S2000000 main_c_8
  let main_v22 : IVec S2000000 1 := cmpi .slt main_arg3 main_v21
  let main_c_9 : IVec S_ 1 := constantI S_ 1 1#1
  let main_v23 : IVec S_ 1 := (fun x v => Host.reduce IntOp.andi x v reducesTo_S2000000_S_d0 h_S_) main_v22 main_c_9
  let main_v24 : IVec S_ 1 := andi main_v20 main_v23
  main_v24

def fn {F : FTy → Type} [FloatOps F] (main_arg0 : FVec F S1000x256 .f32) (main_arg1 : FVec F S1200x256 .f32) (main_arg2 : IVec S2000000 32) (main_arg3 : IVec S2000000 32) (main_arg4 : IVec S2x2000000 32) (main_arg5 : IVec S2x2000000 32) : IVec S_ 1 :=
  let main_v0 : FVec F S1000x256 .f32 := Host.absf main_arg0
  let main_cst : FVec F S_ .f32 := constant S_ .f32 0x7F800000#32
  let main_v1 : FVec F S1000x256 .f32 := broadcastInDim S1000x256 ![] bcast_S_S1000x256 main_cst
  let main_v2 : IVec S1000x256 1 := cmpf .olt main_v0 main_v1
  let main_c : IVec S_ 1 := constantI S_ 1 1#1
  let main_v3 : IVec S_ 1 := (fun x v => Host.reduce IntOp.andi x v reducesTo_S1000x256_S_d0_1 h_S_) main_v2 main_c
  let main_v4 : FVec F S1200x256 .f32 := Host.absf main_arg1
  let main_cst_0 : FVec F S_ .f32 := constant S_ .f32 0x7F800000#32
  let main_v5 : FVec F S1200x256 .f32 := broadcastInDim S1200x256 ![] bcast_S_S1200x256 main_cst_0
  let main_v6 : IVec S1200x256 1 := cmpf .olt main_v4 main_v5
  let main_c_1 : IVec S_ 1 := constantI S_ 1 1#1
  let main_v7 : IVec S_ 1 := (fun x v => Host.reduce IntOp.andi x v reducesTo_S1200x256_S_d0_1 h_S_) main_v6 main_c_1
  let main_v8 : IVec S_ 1 := andi main_v3 main_v7
  let main_c_2 : IVec S_ 32 := constantI S_ 32 0#32
  let main_v9 : IVec S2000000 32 := broadcastInDim S2000000 ![] bcast_S_S2000000 main_c_2
  let main_v10 : IVec S2000000 1 := cmpi .sge main_arg2 main_v9
  let main_c_3 : IVec S_ 1 := constantI S_ 1 1#1
  let main_v11 : IVec S_ 1 := (fun x v => Host.reduce IntOp.andi x v reducesTo_S2000000_S_d0 h_S_) main_v10 main_c_3
  let main_v12 : IVec S_ 1 := andi main_v8 main_v11
  let main_c_4 : IVec S_ 32 := constantI S_ 32 1000#32
  let main_v13 : IVec S2000000 32 := broadcastInDim S2000000 ![] bcast_S_S2000000 main_c_4
  let main_v14 : IVec S2000000 1 := cmpi .slt main_arg2 main_v13
  let main_c_5 : IVec S_ 1 := constantI S_ 1 1#1
  let main_v15 : IVec S_ 1 := (fun x v => Host.reduce IntOp.andi x v reducesTo_S2000000_S_d0 h_S_) main_v14 main_c_5
  fn_part1 (F := F) main_arg3 main_v12 main_v15
-- ==== Kernel.lean ====
abbrev S1000x256 : Shape := ⟨2, ![1000, 256]⟩
abbrev S1200x256 : Shape := ⟨2, ![1200, 256]⟩
abbrev S2000000 : Shape := ⟨1, ![2000000]⟩
abbrev S2x2000000 : Shape := ⟨2, ![2, 2000000]⟩
abbrev S_ : Shape := ⟨0, ![]⟩
abbrev S1x1000 : Shape := ⟨2, ![1, 1000]⟩
abbrev S1x1200 : Shape := ⟨2, ![1, 1200]⟩
abbrev S1200 : Shape := ⟨1, ![1200]⟩
abbrev S1200x1 : Shape := ⟨2, ![1200, 1]⟩
abbrev S256x1200 : Shape := ⟨2, ![256, 1200]⟩
abbrev S1200x1200 : Shape := ⟨2, ![1200, 1200]⟩
abbrev S1000 : Shape := ⟨1, ![1000]⟩
abbrev S1024 : Shape := ⟨1, ![1024]⟩
abbrev S1x1024 : Shape := ⟨2, ![1, 1024]⟩
abbrev S2007040 : Shape := ⟨1, ![2007040]⟩
abbrev S1x2007040 : Shape := ⟨2, ![1, 2007040]⟩
abbrev S1x8192 : Shape := ⟨2, ![1, 8192]⟩
abbrev S1x128 : Shape := ⟨2, ![1, 128]⟩
abbrev S128x8192 : Shape := ⟨2, ![128, 8192]⟩
abbrev S1280 : Shape := ⟨1, ![1280]⟩
abbrev S1x1280 : Shape := ⟨2, ![1, 1280]⟩
abbrev S4000000 : Shape := ⟨1, ![4000000]⟩

abbrev nBuf : Space → Nat
  | .hbm => 38
  | .vmem => 16
  | .smem => 0
  | _ => 0

abbrev bufTy : (tb : Table) → Fin (tcTables nBuf tb) → BufTy
  | .hbm, ⟨0, _⟩ => ⟨S1000x256, .f32⟩
  | .hbm, ⟨1, _⟩ => ⟨S1200x256, .f32⟩
  | .hbm, ⟨2, _⟩ => ⟨S2000000, .i32⟩
  | .hbm, ⟨3, _⟩ => ⟨S2000000, .i32⟩
  | .hbm, ⟨4, _⟩ => ⟨S2x2000000, .i32⟩
  | .hbm, ⟨5, _⟩ => ⟨S2x2000000, .i32⟩
  | .hbm, ⟨6, _⟩ => ⟨S_, .i32⟩
  | .hbm, ⟨7, _⟩ => ⟨S_, .f32⟩
  | .hbm, ⟨8, _⟩ => ⟨S1200x256, .f32⟩
  | .hbm, ⟨9, _⟩ => ⟨S1x1000, .f32⟩
  | .hbm, ⟨10, _⟩ => ⟨S1x1200, .f32⟩
  | .hbm, ⟨11, _⟩ => ⟨S1000, .f32⟩
  | .hbm, ⟨12, _⟩ => ⟨S1200, .f32⟩
  | .hbm, ⟨13, _⟩ => ⟨S_, .i32⟩
  | .hbm, ⟨14, _⟩ => ⟨S_, .f32⟩
  | .hbm, ⟨15, _⟩ => ⟨S1024, .f32⟩
  | .hbm, ⟨16, _⟩ => ⟨S1024, .bf16⟩
  | .hbm, ⟨17, _⟩ => ⟨S1x1024, .bf16⟩
  | .hbm, ⟨18, _⟩ => ⟨S_, .i32⟩
  | .hbm, ⟨19, _⟩ => ⟨S_, .i32⟩
  | .hbm, ⟨20, _⟩ => ⟨S2007040, .i32⟩
  | .hbm, ⟨21, _⟩ => ⟨S1x2007040, .i32⟩
  | .hbm, ⟨22, _⟩ => ⟨S1x2007040, .f32⟩
  | .hbm, ⟨23, _⟩ => ⟨S2007040, .f32⟩
  | .hbm, ⟨24, _⟩ => ⟨S2000000, .f32⟩
  | .hbm, ⟨25, _⟩ => ⟨S_, .i32⟩
  | .hbm, ⟨26, _⟩ => ⟨S_, .f32⟩
  | .hbm, ⟨27, _⟩ => ⟨S1280, .f32⟩
  | .hbm, ⟨28, _⟩ => ⟨S1280, .bf16⟩
  | .hbm, ⟨29, _⟩ => ⟨S1x1280, .bf16⟩
  | .hbm, ⟨30, _⟩ => ⟨S_, .i32⟩
  | .hbm, ⟨31, _⟩ => ⟨S_, .i32⟩
  | .hbm, ⟨32, _⟩ => ⟨S2007040, .i32⟩
  | .hbm, ⟨33, _⟩ => ⟨S1x2007040, .i32⟩
  | .hbm, ⟨34, _⟩ => ⟨S1x2007040, .f32⟩
  | .hbm, ⟨35, _⟩ => ⟨S2007040, .f32⟩
  | .hbm, ⟨36, _⟩ => ⟨S2000000, .f32⟩
  | .hbm, ⟨37, _⟩ => ⟨S4000000, .f32⟩
  | .local _ .vmem, ⟨0, _⟩ => ⟨S1200x256, .f32⟩
  | .local _ .vmem, ⟨1, _⟩ => ⟨S1200x256, .f32⟩
  | .local _ .vmem, ⟨2, _⟩ => ⟨S1x1000, .f32⟩
  | .local _ .vmem, ⟨3, _⟩ => ⟨S1x1200, .f32⟩
  | .local _ .vmem, ⟨4, _⟩ => ⟨S1x1024, .bf16⟩
  | .local _ .vmem, ⟨5, _⟩ => ⟨S1x8192, .i32⟩
  | .local _ .vmem, ⟨6, _⟩ => ⟨S1x8192, .i32⟩
  | .local _ .vmem, ⟨7, _⟩ => ⟨S1x8192, .f32⟩
  | .local _ .vmem, ⟨8, _⟩ => ⟨S1x8192, .f32⟩
  | .local _ .vmem, ⟨9, _⟩ => ⟨S1x8192, .f32⟩
  | .local _ .vmem, ⟨10, _⟩ => ⟨S1x1280, .bf16⟩
  | .local _ .vmem, ⟨11, _⟩ => ⟨S1x8192, .i32⟩
  | .local _ .vmem, ⟨12, _⟩ => ⟨S1x8192, .i32⟩
  | .local _ .vmem, ⟨13, _⟩ => ⟨S1x8192, .f32⟩
  | .local _ .vmem, ⟨14, _⟩ => ⟨S1x8192, .f32⟩
  | .local _ .vmem, ⟨15, _⟩ => ⟨S1x8192, .f32⟩
  | _, _ => ⟨S1000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_call3_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_call4_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc2_sem0_0 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1200x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1200x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![245], ![false]⟩

@[reducible] def k1_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k1_mult1 (k1_t1 : Fin k1_t1_loop.trips) : BitVec 32 :=
  let c0_i32_10 : BitVec 32 := 0#32
  let c0_i32 : BitVec 32 := 0#32
  let c1_i32 : BitVec 32 := 1#32
  let arg5 : BitVec 32 := Scf.iv c0_i32 c1_i32 k1_t1
  let c1_i32_9 : BitVec 32 := 1#32
  let v11 : BitVec 32 := Scalar.muli arg5 c1_i32_9
  let v12 : BitVec 32 := Scalar.addi c0_i32_10 v11
  let c128_i32 : BitVec 32 := 128#32
  let v13 : BitVec 32 := Scalar.muli v12 c128_i32
  v13
def k1_off1 (k1_t1 : Fin k1_t1_loop.trips) : Fin 2 → Nat :=
  let c0_11 : Index := 0#32
  let c0_i32_10 : BitVec 32 := 0#32
  let c0_i32 : BitVec 32 := 0#32
  let c1_i32 : BitVec 32 := 1#32
  let arg5 : BitVec 32 := Scf.iv c0_i32 c1_i32 k1_t1
  let c1_i32_9 : BitVec 32 := 1#32
  let v11 : BitVec 32 := Scalar.muli arg5 c1_i32_9
  let v12 : BitVec 32 := Scalar.addi c0_i32_10 v11
  let c128_i32 : BitVec 32 := 128#32
  let v13 : BitVec 32 := Scalar.muli v12 c128_i32
  let v14 : BitVec 32 := v13
  let v15 : Index := Scalar.indexCast v14
  ![0, v15.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![245], ![false]⟩

@[reducible] def k2_t1_loop : Scf.Loop 32 :=
  let c0_i32 : BitVec 32 := 0#32
  let c10_i32 : BitVec 32 := 10#32
  let v6 : BitVec 32 := Scalar.addi c0_i32 c10_i32
  let c1_i32 : BitVec 32 := 1#32
  ⟨c0_i32, v6, c1_i32⟩
def k2_mult1 (k2_t1 : Fin k2_t1_loop.trips) : BitVec 32 :=
  let c0_i32_10 : BitVec 32 := 0#32
  let c0_i32 : BitVec 32 := 0#32
  let c1_i32 : BitVec 32 := 1#32
  let arg5 : BitVec 32 := Scf.iv c0_i32 c1_i32 k2_t1
  let c1_i32_9 : BitVec 32 := 1#32
  let v11 : BitVec 32 := Scalar.muli arg5 c1_i32_9
  let v12 : BitVec 32 := Scalar.addi c0_i32_10 v11
  let c128_i32 : BitVec 32 := 128#32
  let v13 : BitVec 32 := Scalar.muli v12 c128_i32
  v13
def k2_off1 (k2_t1 : Fin k2_t1_loop.trips) : Fin 2 → Nat :=
  let c0_11 : Index := 0#32
  let c0_i32_10 : BitVec 32 := 0#32
  let c0_i32 : BitVec 32 := 0#32
  let c1_i32 : BitVec 32 := 1#32
  let arg5 : BitVec 32 := Scf.iv c0_i32 c1_i32 k2_t1
  let c1_i32_9 : BitVec 32 := 1#32
  let v11 : BitVec 32 := Scalar.muli arg5 c1_i32_9
  let v12 : BitVec 32 := Scalar.addi c0_i32_10 v11
  let c128_i32 : BitVec 32 := 128#32
  let v13 : BitVec 32 := Scalar.muli v12 c128_i32
  let v14 : BitVec 32 := v13
  let v15 : Index := Scalar.indexCast v14
  ![0, v15.toNat]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1280 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x8192 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  pads_S1000x256_S1200x256_02000_000 : S1000x256.Pads (![0, 0] : Fin 2 → Nat) ![200, 0] ![0, 0] S1200x256
  h_S_ : 0 < S_.numel
  inb_S1200x256_S1200x256_0_0 : ∀ a, (![0, 0] : Fin 2 → Nat) a + S1200x256.size a ≤ S1200x256.size a
  h_S1200x256 : 0 < S1200x256.numel
  shapeCasts_S1200x256_S1200x256 : S1200x256.ShapeCasts S1200x256
  reduces_S1200x256_S1200 : S1200x256.Reduces [1] S1200
  shapeCasts_S1200_S1200x1 : S1200.ShapeCasts S1200x1
  broadcasts_S1200x1_S1200x256 : S1200x1.Broadcasts S1200x256
  bitsLt_bf16_f32 : FTy.bits .bf16 < FTy.bits .f32
  transposes_S1200x256_p1_0_S256x1200 : S1200x256.Transposes [1, 0] S256x1200
  reduces_S1200x1200_S1200 : S1200x1200.Reduces [1] S1200
  reduces_S1200x1200_S1200_2 : S1200x1200.Reduces [0] S1200
  slices_S1200_o0_S1000 : S1200.Slices ![0] S1000
  shapeCasts_S1000_S1x1000 : S1000.ShapeCasts S1x1000
  inb_S1x1000_S1x1000_0_0 : ∀ a, (![0, 0] : Fin 2 → Nat) a + S1x1000.size a ≤ S1x1000.size a
  h_S1x1000 : 0 < S1x1000.numel
  shapeCasts_S1200_S1x1200 : S1200.ShapeCasts S1x1200
  inb_S1x1200_S1x1200_0_0 : ∀ a, (![0, 0] : Fin 2 → Nat) a + S1x1200.size a ≤ S1x1200.size a
  h_S1x1200 : 0 < S1x1200.numel
  shapeCasts_S1x1000_S1000 : S1x1000.ShapeCasts S1000
  shapeCasts_S1x1200_S1200 : S1x1200.ShapeCasts S1200
  pads_S1000_S1024_0240 : S1000.Pads (![0] : Fin 1 → Nat) ![24] ![0] S1024
  shapeCasts_S1024_S1x1024 : S1024.ShapeCasts S1x1024
  pads_S2000000_S2007040_070400 : S2000000.Pads (![0] : Fin 1 → Nat) ![7040] ![0] S2007040
  shapeCasts_S2007040_S1x2007040 : S2007040.ShapeCasts S1x2007040
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  h_S1x128 : 0 < S1x128.numel
  shapeCasts_S1x128_S1x128 : S1x128.ShapeCasts S1x128
  iota_S128x8192_d0_w32 : S128x8192.Iotas .tc 32 [0]
  broadcasts_S1x8192_S128x8192 : S1x8192.Broadcasts S128x8192
  natLt_1_32 : 1 < 32
  shapeCasts_S1x2007040_S2007040 : S1x2007040.ShapeCasts S2007040
  slices_S2007040_S2000000_0 : S2007040.Slices ![0] S2000000
  pads_S1200_S1280_0800 : S1200.Pads (![0] : Fin 1 → Nat) ![80] ![0] S1280
  shapeCasts_S1280_S1x1280 : S1280.ShapeCasts S1x1280
  concatenates_S2000000_S2000000_S4000000_d0 : Shape.Concatenates [S2000000, S2000000] S4000000 0
  dot_S1200x256_S256x1200_S1200x1200_1_0_0_1_n_n_wf : DotDims.WF S1200x256 S256x1200 S1200x1200 [1] [0] [0] [1] [] []
  dot_S1x128_S128x8192_S1x8192_1_0_0_1_n_n_wf : DotDims.WF S1x128 S128x8192 S1x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1200x256.size a ≤ S1200x256.size a
  hwx0_0 : ∀ i : grid0.Coords, EltTy.bits .f32 = 32 ∨ (Rect.block (s := S1200x256) S1200x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1200x256.size a ≤ S1200x256.size a
  hwx0_1 : ∀ i : grid0.Coords, EltTy.bits .f32 = 32 ∨ (Rect.block (s := S1200x256) S1200x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1200.size a ≤ S1x1200.size a
  hwx0_3 : ∀ i : grid0.Coords, EltTy.bits .f32 = 32 ∨ (Rect.block (s := S1x1200) S1x1200.size (cc0_transform_3 i) (hinb0_3 i)).WholeWords (EltTy.packing .f32)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S1x128.size a ≤ S1x1024.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .bf16 = 32 ∨ (Rect.block (s := S1x1024) S1x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x2007040.size a
  hwx1_1 : ∀ i : grid1.Coords, EltTy.bits .i32 = 32 ∨ (Rect.block (s := S1x2007040) S1x8192.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x2007040.size a
  hwx1_2 : ∀ i : grid1.Coords, EltTy.bits .f32 = 32 ∨ (Rect.block (s := S1x2007040) S1x8192.size (cc1_transform_2 i) (hinb1_2 i)).WholeWords (EltTy.packing .f32)
  hrank2 : 0 < grid2.rank
  k2_t1_ok : k2_t1_loop.OK
  k2_mult1_dvd : ∀ k2_t1 : Fin k2_t1_loop.trips, 128 ∣ (k2_mult1 k2_t1).toNat
  k2_off1_inb : ∀ k2_t1 : Fin k2_t1_loop.trips, ∀ a, (k2_off1 k2_t1) a + S1x128.size a ≤ S1x1280.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1280.size a ≤ S1x1280.size a
  hwx2_0 : ∀ i : grid2.Coords, EltTy.bits .bf16 = 32 ∨ (Rect.block (s := S1x1280) S1x1280.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x8192.size a ≤ S1x2007040.size a
  hwx2_1 : ∀ i : grid2.Coords, EltTy.bits .i32 = 32 ∨ (Rect.block (s := S1x2007040) S1x8192.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x8192.size a ≤ S1x2007040.size a
  hwx2_2 : ∀ i : grid2.Coords, EltTy.bits .f32 = 32 ∨ (Rect.block (s := S1x2007040) S1x8192.size (cc2_transform_2 i) (hinb2_2 i)).WholeWords (EltTy.packing .f32)

variable [Facts₀]

def dot_S1200x256_S256x1200_S1200x1200_1_0_0_1_n_n : DotDims S1200x256 S256x1200 S1200x1200 where
  lhsContracting := [1]
  rhsContracting := [0]
  lhsNonContracting := [0]
  rhsNonContracting := [1]
  lhsBatch := []
  rhsBatch := []
  wf := dot_S1200x256_S256x1200_S1200x1200_1_0_0_1_n_n_wf
def dot_S1x128_S128x8192_S1x8192_1_0_0_1_n_n : DotDims S1x128 S128x8192 S1x8192 where
  lhsContracting := [1]
  rhsContracting := [0]
  lhsNonContracting := [0]
  rhsNonContracting := [1]
  lhsBatch := []
  rhsBatch := []
  wf := dot_S1x128_S128x8192_S1x8192_1_0_0_1_n_n_wf

abbrev win0_0 : Pipeline.Window sig grid0 :=
  Pipeline.Window.ofSpec (Memref.whole main_v0) S1200x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1200x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1000.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1200.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S1x1280.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x8192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1000x256 : Shape := ⟨2, ![1000, 256]⟩
abbrev S1200x256 : Shape := ⟨2, ![1200, 256]⟩
abbrev S2000000 : Shape := ⟨1, ![2000000]⟩
abbrev S2x2000000 : Shape := ⟨2, ![2, 2000000]⟩
abbrev S_ : Shape := ⟨0, ![]⟩
abbrev S1200 : Shape := ⟨1, ![1200]⟩
abbrev S1200x1 : Shape := ⟨2, ![1200, 1]⟩
abbrev S256x1200 : Shape := ⟨2, ![256, 1200]⟩
abbrev S1200x1200 : Shape := ⟨2, ![1200, 1200]⟩
abbrev S1000 : Shape := ⟨1, ![1000]⟩
abbrev S2000000x1 : Shape := ⟨2, ![2000000, 1]⟩
abbrev S4000000 : Shape := ⟨1, ![4000000]⟩

abbrev nBuf : Space → Nat
  | .hbm => 61
  | .vmem => 0
  | .smem => 0
  | _ => 0

abbrev bufTy : (tb : Table) → Fin (tcTables nBuf tb) → BufTy
  | .hbm, ⟨0, _⟩ => ⟨S1000x256, .f32⟩
  | .hbm, ⟨1, _⟩ => ⟨S1200x256, .f32⟩
  | .hbm, ⟨2, _⟩ => ⟨S2000000, .i32⟩
  | .hbm, ⟨3, _⟩ => ⟨S2000000, .i32⟩
  | .hbm, ⟨4, _⟩ => ⟨S2x2000000, .i32⟩
  | .hbm, ⟨5, _⟩ => ⟨S2x2000000, .i32⟩
  | .hbm, ⟨6, _⟩ => ⟨S_, .i32⟩
  | .hbm, ⟨7, _⟩ => ⟨S_, .f32⟩
  | .hbm, ⟨8, _⟩ => ⟨S1200x256, .f32⟩
  | .hbm, ⟨9, _⟩ => ⟨S1200x256, .f32⟩
  | .hbm, ⟨10, _⟩ => ⟨S_, .f32⟩
  | .hbm, ⟨11, _⟩ => ⟨S1200, .f32⟩
  | .hbm, ⟨12, _⟩ => ⟨S1200x1, .f32⟩
  | .hbm, ⟨13, _⟩ => ⟨S1200x1, .f32⟩
  | .hbm, ⟨14, _⟩ => ⟨S_, .f32⟩
  | .hbm, ⟨15, _⟩ => ⟨S1200x1, .f32⟩
  | .hbm, ⟨16, _⟩ => ⟨S1200x1, .f32⟩
  | .hbm, ⟨17, _⟩ => ⟨S1200x256, .f32⟩
  | .hbm, ⟨18, _⟩ => ⟨S1200x256, .f32⟩
  | .hbm, ⟨19, _⟩ => ⟨S1200x256, .f32⟩
  | .hbm, ⟨20, _⟩ => ⟨S_, .f32⟩
  | .hbm, ⟨21, _⟩ => ⟨S1200, .f32⟩
  | .hbm, ⟨22, _⟩ => ⟨S1200x1, .f32⟩
  | .hbm, ⟨23, _⟩ => ⟨S1200x1, .f32⟩
  | .hbm, ⟨24, _⟩ => ⟨S_, .f32⟩
  | .hbm, ⟨25, _⟩ => ⟨S1200x1, .f32⟩
  | .hbm, ⟨26, _⟩ => ⟨S1200x1, .f32⟩
  | .hbm, ⟨27, _⟩ => ⟨S1200x256, .f32⟩
  | .hbm, ⟨28, _⟩ => ⟨S1200x256, .f32⟩
  | .hbm, ⟨29, _⟩ => ⟨S256x1200, .f32⟩
  | .hbm, ⟨30, _⟩ => ⟨S1200x1200, .f32⟩
  | .hbm, ⟨31, _⟩ => ⟨S_, .f32⟩
  | .hbm, ⟨32, _⟩ => ⟨S1200, .f32⟩
  | .hbm, ⟨33, _⟩ => ⟨S_, .f32⟩
  | .hbm, ⟨34, _⟩ => ⟨S1200, .f32⟩
  | .hbm, ⟨35, _⟩ => ⟨S1000, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S2000000, .f32⟩
  | .hbm, ⟨45, _⟩ => ⟨S_, .f32⟩
  | .hbm, ⟨46, _⟩ => ⟨S2000000, .f32⟩
  | .hbm, ⟨47, _⟩ => ⟨S2000000, .f32⟩
  | .hbm, ⟨48, _⟩ => ⟨S_, .i32⟩
  | .hbm, ⟨49, _⟩ => ⟨S2000000, .i32⟩
  | .hbm, ⟨50, _⟩ => ⟨S2000000, .i1⟩
  | .hbm, ⟨51, _⟩ => ⟨S_, .i32⟩
  | .hbm, ⟨52, _⟩ => ⟨S2000000, .i32⟩
  | .hbm, ⟨53, _⟩ => ⟨S2000000, .i32⟩
  | .hbm, ⟨54, _⟩ => ⟨S2000000, .i32⟩
  | .hbm, ⟨55, _⟩ => ⟨S2000000x1, .i32⟩
  | .hbm, ⟨56, _⟩ => ⟨S2000000, .f32⟩
  | .hbm, ⟨57, _⟩ => ⟨S_, .f32⟩
  | .hbm, ⟨58, _⟩ => ⟨S2000000, .f32⟩
  | .hbm, ⟨59, _⟩ => ⟨S2000000, .f32⟩
  | .hbm, ⟨60, _⟩ => ⟨S4000000, .f32⟩
  | _, _ => ⟨S1000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call2_v0 : Ref sig .tc := ⟨.hbm, 19, rfl⟩
abbrev main_call2_cst : Ref sig .tc := ⟨.hbm, 20, rfl⟩
abbrev main_call2_v1 : Ref sig .tc := ⟨.hbm, 21, rfl⟩
abbrev main_call2_v2 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_c_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩

abbrev nD : Nat := 1
abbrev τ : Topo := Topo.v7x

variable {F : FTy → Type} [FloatOps F]

class Facts₀ : Prop where
  pads_S1000x256_S1200x256_02000_000 : S1000x256.Pads (![0, 0] : Fin 2 → Nat) ![200, 0] ![0, 0] S1200x256
  h_S_ : 0 < S_.numel
  reducesTo_S1200x256_S1200_d1 : S1200x256.ReducesTo [1] S1200
  bcast_S1200_S1200x1_0 : S1200.BroadcastsInDim S1200x1 (![0] : Fin 1 → Fin S1200x1.rank)
  bcast_S_S1200x1 : S_.BroadcastsInDim S1200x1 (![] : Fin 0 → Fin S1200x1.rank)
  bcast_S1200x1_S1200x256_0_1 : S1200x1.BroadcastsInDim S1200x256 (![0, 1] : Fin 2 → Fin S1200x256.rank)
  transposes_S1200x256_S256x1200_1_0 : S1200x256.Transposes [1, 0] S256x1200
  reducesTo_S1200x1200_S1200_d1 : S1200x1200.ReducesTo [1] S1200
  reducesTo_S1200x1200_S1200_d0 : S1200x1200.ReducesTo [0] S1200
  slices_S1200_S1000_0 : S1200.Slices ![0] S1000
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000_S2000000_S4000000_d0 : Shape.Concatenates [S2000000, S2000000] S4000000 0
  dot_S1200x256_S256x1200_S1200x1200_1_0_0_1_n_n_wf : DotDims.WF S1200x256 S256x1200 S1200x1200 [1] [0] [0] [1] [] []
  gather_S1000_S2000000x1_S2000000_n_0_n_n_0_1_1_wf : GatherDims.WF S1000 S2000000x1 S2000000 [] [0] [] [0] [] 1 ![1]
  gather_S1200_S2000000x1_S2000000_n_0_n_n_0_1_1_wf : GatherDims.WF S1200 S2000000x1 S2000000 [] [0] [] [0] [] 1 ![1]

variable [Facts₀]

def dot_S1200x256_S256x1200_S1200x1200_1_0_0_1_n_n : DotDims S1200x256 S256x1200 S1200x1200 where
  lhsContracting := [1]
  rhsContracting := [0]
  lhsNonContracting := [0]
  rhsNonContracting := [1]
  lhsBatch := []
  rhsBatch := []
  wf := dot_S1200x256_S256x1200_S1200x1200_1_0_0_1_n_n_wf
def gather_S1000_S2000000x1_S2000000_n_0_n_n_0_1_1 : GatherDims S1000 S2000000x1 S2000000 where
  offsetDims := []
  collapsedSliceDims := [0]
  operandBatchingDims := []
  startIndicesBatchingDims := []
  startIndexMap := [0]
  indexVectorDim := 1
  sliceSizes := ![1]
  wf := gather_S1000_S2000000x1_S2000000_n_0_n_n_0_1_1_wf
def gather_S1200_S2000000x1_S2000000_n_0_n_n_0_1_1 : GatherDims S1200 S2000000x1 S2000000 where
  offsetDims := []
  collapsedSliceDims := [0]
  operandBatchingDims := []
  startIndicesBatchingDims := []
  startIndexMap := [0]
  indexVectorDim := 1
  sliceSizes := ![1]
  wf := gather_S1200_S2000000x1_S2000000_n_0_n_n_0_1_1_wf

class Facts : Prop extends Facts₀ where

variable [Facts]
-- ==== Proof.Spec.lean ====
/-
  THE FUNCTION BOTH PROGRAMS COMPUTE, index by index, over the extended reals.

  Two tables of row vectors, A : [1200, 256] (the first relation table, already extended by 200 zero rows) and
  B : [1200, 256]. Each row is divided by its Euclidean length plus a small constant; `sim p q` is the inner product of
  row p of A and row q of B so normalised. The first attention vector is the row maximum of `sim` over the first 1000
  rows, the second the column maximum. An edge with relation word w reads its table at w and is capped at one; a word
  outside the table reads zero (the kernel's one-hot product sums to nothing there). The result lists the 2,000,000
  edges of the first graph, then those of the second.
-/
import Idealize.ShloMosaic.PureOps.Ideal
import Idealize.ShloMosaic.Lib.ValueIdx

noncomputable section

open scoped BigOperators

namespace Cert.Spec

open Idealize.ShloMosaic Idealize.ShloMosaic.ValueIdx

/-- A table of 1200 rows of 256 extended reals. -/
abbrev Mat : Type := (⟨2, ![1200, 256]⟩ : Shape).Idx → EReal

/-- The constant added to a row's length (the f32 nearest 1e-8), as the word both programs carry. -/
def eps : EReal := Ideal.ofBits .f32 0x322BCC77#32
/-- The starting value of a maximum: the word of minus infinity. -/
def negInf : EReal := Ideal.ofBits .f32 0xFF800000#32
/-- The cap: the word of 1.0. -/
def one : EReal := Ideal.ofBits .f32 0x3F800000#32

/-- Row p's length plus the constant. -/
def den (X : Mat) (p : Fin 1200) : EReal := Ideal.sqrt (∑ k : Fin 256, X (ix2 p k) * X (ix2 p k)) + eps

/-- Entry (p, k) of the row-normalised table. -/
def unit (X : Mat) (p : Fin 1200) (k : Fin 256) : EReal := Ideal.div (X (ix2 p k)) (den X p)

/-- The similarity of row p of A and row q of B. -/
def sim (A B : Mat) (p q : Fin 1200) : EReal := ∑ k : Fin 256, unit A p k * unit B q k

/-- The largest similarity in row p. -/
def rowMax (A B : Mat) (p : Fin 1200) : EReal :=
  (Finset.univ : Finset (Fin 1200)).fold max negInf (fun q => sim A B p q)

/-- The largest similarity in column q. -/
def colMax (A B : Mat) (q : Fin 1200) : EReal :=
  (Finset.univ : Finset (Fin 1200)).fold max negInf (fun p => sim A B p q)

/-- The first attention vector: the row maxima of the first 1000 rows. -/
def attSr (A B : Mat) (r : Fin 1000) : EReal := rowMax A B ⟨r.val, Nat.lt_trans r.isLt (by decide)⟩

/-- A table of n entries read at the word w and capped at one; a word that names no entry reads zero. -/
def look (n : Nat) (tbl : Fin n → EReal) (w : BitVec 32) : EReal :=
  min (if h : w.toNat < n then tbl ⟨w.toNat, h⟩ else 0) one

/-- The result: edge i < 2,000,000 looks its relation word up in the first attention vector, edge 2,000,000 + i in the
    second. -/
def G (A B : Mat) (rs rt : (⟨1, ![2000000]⟩ : Shape).Idx → BitVec 32) : (⟨1, ![4000000]⟩ : Shape).Idx → EReal := fun i =>
  if h : (i 0).val < 2000000 then look 1000 (attSr A B) (rs (ix1 ⟨(i 0).val, h⟩))
  else look 1200 (colMax A B) (rt (ix1 ⟨(i 0).val - 2000000, by
    have h4 : (i 0).val < 4000000 := (i 0).isLt
    omega⟩))

end Cert.Spec

end
-- ==== Proof.KDefs.lean ====
/- Names for the arrays the three regions read and write, each at its literal type, on one core, at the ideal
   instance: the extended first table, the two attention vectors as the first region leaves them, each lookup region's
   table row and padded word row as it finds them, and each lookup region's result row as it leaves it. -/
import proofs.«413616_j64639257805012_2_alg».proof.Proof.Gen.KernelIdeal.Frame
import proofs.«413616_j64639257805012_2_alg».proof.Proof.Spec

set_option maxRecDepth 16384

noncomputable section

namespace Cert.KernelIdeal.KDefs

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first relation table extended by 200 zero rows (the host's pad before the first region). -/
abbrev padA (c : Dev nD) : Vec Ideal S1200x256 .f32 :=
  pad S1200x256 ![0, 0] ![200, 0] ![0, 0] (m ((c.tc : Thread nD τ).loc main_arg0)) (sitofp (F := Ideal) .f32 (constantI S_ 32 0#32))
    pads_S1000x256_S1200x256_02000_000 h_S_
/-- The second relation table. -/
abbrev argB (c : Dev nD) : Vec Ideal S1200x256 .f32 := m ((c.tc : Thread nD τ).loc main_arg1)
/-- The relation words of the first and of the second graph. -/
abbrev argRs (c : Dev nD) : Vec Ideal S2000000 .i32 := m ((c.tc : Thread nD τ).loc main_arg2)
abbrev argRt (c : Dev nD) : Vec Ideal S2000000 .i32 := m ((c.tc : Thread nD τ).loc main_arg3)

/-- The first region's two input arrays as it finds them. -/
abbrev inA (c : Dev nD) : Vec Ideal S1200x256 .f32 := V2 m ρ c main_v0
abbrev inB (c : Dev nD) : Vec Ideal S1200x256 .f32 := V2 m ρ c main_arg1
/-- The first region's two result rows as it leaves them. -/
abbrev outSr (c : Dev nD) : Vec Ideal S1x1000 .f32 := W3 m ρ c (Proc.devRef .tc main_v1_0)
abbrev outTg (c : Dev nD) : Vec Ideal S1x1200 .f32 := W3 m ρ c (Proc.devRef .tc main_v1_1)

/-- The second region's table row and padded word row as it finds them, and its result row as it leaves it. -/
abbrev tblSr (c : Dev nD) : Vec Ideal S1x1024 .bf16 := V8 m ρ c main_v6
abbrev wordsSr (c : Dev nD) : Vec Ideal S1x2007040 .i32 := V8 m ρ c main_v8
abbrev resSr (c : Dev nD) : Vec Ideal S1x2007040 .f32 := W9 m ρ c (Proc.devRef .tc main_v9)

/-- The third region's table row and padded word row as it finds them, and its result row as it leaves it. -/
abbrev tblTg (c : Dev nD) : Vec Ideal S1x1280 .bf16 := V14 m ρ c main_v14
abbrev wordsTg (c : Dev nD) : Vec Ideal S1x2007040 .i32 := V14 m ρ c main_v16
abbrev resTg (c : Dev nD) : Vec Ideal S1x2007040 .f32 := W15 m ρ c (Proc.devRef .tc main_v17)

/-- The program's result array after the last host stretch. -/
abbrev result (c : Dev nD) : Vec Ideal S4000000 .f32 := W16 m ρ c (Proc.devRef .tc main_v20)

/-- Which buffer each window stages. -/
theorem arr0_0 : Pipeline.arrRef spec0 0 = main_v0 := rfl
theorem arr0_1 : Pipeline.arrRef spec0 1 = main_arg1 := rfl
theorem arr0_2 : Pipeline.arrRef spec0 2 = main_v1_0 := rfl
theorem arr0_3 : Pipeline.arrRef spec0 3 = main_v1_1 := rfl
theorem arr1_0 : Pipeline.arrRef spec1 0 = main_v6 := rfl
theorem arr1_1 : Pipeline.arrRef spec1 1 = main_v8 := rfl
theorem arr1_2 : Pipeline.arrRef spec1 2 = main_v9 := rfl
theorem arr2_0 : Pipeline.arrRef spec2 0 = main_v14 := rfl
theorem arr2_1 : Pipeline.arrRef spec2 1 = main_v16 := rfl
theorem arr2_2 : Pipeline.arrRef spec2 2 = main_v17 := rfl

end Cert.KernelIdeal.KDefs

end
-- ==== Proof.LibRowReduce.lean ====
/-
  A REDUCTION ALONG THE ROWS OF A TABLE, KEPT AS A COLUMN, read at an element.

  A body reduces a block [R, D] over its second axis to a vector [R] and reshapes that to a column [R, 1]
  (a sum or a maximum "with the axis kept").  Read at (p, 0) the column is the vector at p; the vector at p is,
  for a sum, the sum over k < D of the block at (p, k), and for a maximum, the fold of max from the starting value
  over the same entries.  The index inserted at k into the reduced index (p) is (p, k).
-/
import Idealize.ShloMosaic.PureOps.Ideal
import Idealize.ShloMosaic.PureOps.Ideal.Laws
import Idealize.ShloMosaic.Lib.Pipeline.Value
import Idealize.ShloMosaic.Lib.ValueIdx

noncomputable section

namespace Cert.LibRowReduce

open Idealize.ShloMosaic Idealize.ShloMosaic.ValueIdx

/-- A vector [a] cast to a column [a, 1] reads, at (i, u), the vector at i, whatever the unit coordinate u. -/
theorem column_of_vector_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index of the block that reduces into row p at position k of the reduced axis is (p, k). -/
theorem lift_row {R D : Nat} (h : (⟨2, ![R, D]⟩ : Shape).Reduces [1] ⟨1, ![R]⟩) (p : Fin R) (k : Fin D) :
    h.lift (ix1 p) k = ix2 p k := by
  funext a; apply Fin.ext
  match a with
  | ⟨0, _⟩ => rfl
  | ⟨1, _⟩ => rfl

/-- A sum over the second axis of a block, at row p: the sum over k of the block at (p, k). -/
theorem row_sum_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ)
    (p : Fin R) :
    multiReduction .add [1] ⟨1, ![R]⟩ src acc h hφ hacc (ix1 p) = ∑ k : Fin D, src (ix2 p k) := by
  refine (Ideal.multiReduction_add_single src acc h hφ hacc (ix1 p)).trans ?_
  show (∑ k : Fin D, src (h.lift (ix1 p) k)) = _
  exact Finset.sum_congr rfl fun k _ => congrArg src (lift_row h p k)

/-- A maximum over the second axis of a block, at row p: the fold of max, from the starting value, over the block's
    entries (p, k). -/
theorem row_max_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.maximumf.neutral φ hφ)
    (p : Fin R) :
    multiReduction .maximumf [1] ⟨1, ![R]⟩ src acc h hφ hacc (ix1 p)
      = (Finset.univ : Finset (Fin D)).fold max (Ideal.ofBits φ acc) (fun k => src (ix2 p k)) := by
  refine (Ideal.multiReduction_maximumf_single src acc h hφ hacc (ix1 p)).trans ?_
  show (Finset.univ : Finset (Fin D)).fold max (Ideal.ofBits φ acc) (src ∘ h.lift (ix1 p)) = _
  rw [show src ∘ h.lift (ix1 p) = fun k => src (ix2 p k) from funext fun k => congrArg src (lift_row h p k)]
  rfl

end Cert.LibRowReduce

end
-- ==== Proof.LibBlockOps.lean ====
/-
  A COLUMN AND A ROW SPREAD OVER A TABLE, read at an element.

  A kernel body scales the rows of a block `[R, D]` by a column `[R, 1]` and adds a row `[1, D]` to each of its rows; both
  operands are first spread to the block's shape. Read at `(p, q)` the spread column is the column's entry `(p, 0)` and the
  spread row is the row's entry `(0, q)`: a spread repeats the operand along each of its unit axes.
-/
import Idealize.ShloMosaic.Lib.Pipeline.Value
import Idealize.ShloMosaic.Lib.ValueIdx

noncomputable section

namespace Cert.LibBlockOps

open Idealize.ShloMosaic Idealize.ShloMosaic.ValueIdx

/-- The one index of a unit axis. -/
abbrev u1 : Fin 1 := ⟨0, Nat.one_pos⟩

/-- A column `[R, 1]` spread to `[R, D]`, read at `(p, q)`: the column at `(p, 0)`. -/
theorem col_apply {α : Type} {R D : Nat} (x : (⟨2, ![R, 1]⟩ : Shape).Idx → α)
    (h2 : (⟨2, ![R, 1]⟩ : Shape).Broadcasts ⟨2, ![R, D]⟩) (p : Fin R) (q : Fin D) :
    broadcastTo ⟨2, ![R, D]⟩ x h2 (ix2 p q) = x (ix2 p u1) := by
  refine broadcastTo_apply x h2 (ix2 p q) (ix2 p u1) fun a => ?_
  match a with
  | ⟨0, _⟩ =>
    show p.val = if R = 1 then 0 else p.val
    split
    · have := p.isLt; omega
    · rfl
  | ⟨1, _⟩ =>
    show 0 = if (1 : Nat) = 1 then 0 else q.val
    rw [if_pos rfl]

/-- A row `[1, D]` spread to `[R, D]`, read at `(p, q)`: the row at `(0, q)`. -/
theorem row_apply {α : Type} {R D : Nat} (x : (⟨2, ![1, D]⟩ : Shape).Idx → α)
    (h2 : (⟨2, ![1, D]⟩ : Shape).Broadcasts ⟨2, ![R, D]⟩) (p : Fin R) (q : Fin D) :
    broadcastTo ⟨2, ![R, D]⟩ x h2 (ix2 p q) = x (ix2 u1 q) := by
  refine broadcastTo_apply x h2 (ix2 p q) (ix2 u1 q) fun a => ?_
  match a with
  | ⟨0, _⟩ =>
    show 0 = if (1 : Nat) = 1 then 0 else p.val
    rw [if_pos rfl]
  | ⟨1, _⟩ =>
    show q.val = if D = 1 then 0 else q.val
    split
    · have := q.isLt; omega
    · rfl

end Cert.LibBlockOps

end
-- ==== Proof.KPay0.lean ====
/- The attention body's two stored vectors, read at an index: the row maxima and the column maxima of the similarity
   table of the two row-normalised tables. -/
import proofs.«413616_j64639257805012_2_alg».proof.Proof.Gen.KernelIdeal.Skeleton
import proofs.«413616_j64639257805012_2_alg».proof.Proof.Spec
import proofs.«413616_j64639257805012_2_alg».proof.Proof.LibRowReduce
import proofs.«413616_j64639257805012_2_alg».proof.Proof.LibBlockOps
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KPay0

open Cert.KernelIdeal Cert.KernelIdeal.Gen
open Idealize.ShloMosaic Idealize.ShloMosaic.TcCoe Idealize.ShloMosaic.ValueIdx Idealize.SL.Sem

/-! ## The row-normalised table -/

/-- A table divided, row by row, by the row's Euclidean length plus the constant: entry (p, k) is entry (p, k) of the
    table over the square root of the sum of the squares along row p, plus the constant. -/
private theorem unit_apply (X : FVec Ideal S1200x256 .f32) (hr : S1200x256.Reduces [1] S1200)
    (hφ : FKind.Formats .f32) (hacc : (0x00000000#32 : BitVec FTy.f32.bits) = FKind.add.neutral .f32 hφ)
    (hc : S1200.ShapeCasts S1200x1) (hb : S1200x1.Broadcasts S1200x256) (p : Fin 1200) (k : Fin 256) :
    divf X (broadcastTo S1200x256
        (addf (sqrt (shapeCast S1200x1 (multiReduction (F := Ideal) .add [1] S1200 (mulf X X) 0x00000000#32 hr hφ hacc) hc))
          (broadcast S1200x1 (Scalar.ofBits (F := Ideal) .f32 0x322BCC77#32))) hb) (ix2 p k)
      = Cert.Spec.unit X p k := by
  rw [divf_apply, Cert.LibBlockOps.col_apply, addf_apply, broadcast_apply]
  show Ideal.div (X (ix2 p k))
      (Ideal.sqrt (shapeCast S1200x1 (multiReduction (F := Ideal) .add [1] S1200 (mulf X X) 0x00000000#32 hr hφ hacc) hc
          (ix2 p Cert.LibBlockOps.u1)) + Ideal.ofBits .f32 0x322BCC77#32) = _
  rw [Cert.LibRowReduce.column_of_vector_apply, Cert.LibRowReduce.row_sum_apply]
  rfl

/-! ## The product of the first normalised table with the transposed second -/

/-- The left operand's index has the result's row on its first axis … -/
private theorem lhs_ax0 (i : S1200x1200.Idx) (c : dot_S1200x256_S256x1200_S1200x1200_1_0_0_1_n_n.contr.Idx) :
    (dot_S1200x256_S256x1200_S1200x1200_1_0_0_1_n_n.lhsIdx i c 0).val = (i 0).val := by
  unfold DotDims.lhsIdx
  rw [dif_neg (show ¬(0 : Fin S1200x256.rank) ∈ dot_S1200x256_S256x1200_S1200x1200_1_0_0_1_n_n.lhsBatch by decide),
    dif_pos (show (0 : Fin S1200x256.rank) ∈ dot_S1200x256_S256x1200_S1200x1200_1_0_0_1_n_n.lhsNonContracting by decide)]
  rfl
/-- … and the contraction coordinate on its second. -/
private theorem lhs_ax1 (i : S1200x1200.Idx) (c : dot_S1200x256_S256x1200_S1200x1200_1_0_0_1_n_n.contr.Idx) :
    (dot_S1200x256_S256x1200_S1200x1200_1_0_0_1_n_n.lhsIdx i c 1).val = (c ⟨0, by decide⟩).val :=
  dot_S1200x256_S256x1200_S1200x1200_1_0_0_1_n_n.lhsIdx_val_of_single rfl i c
/-- The right operand's index has the contraction coordinate on its first axis … -/
private theorem rhs_ax0 (i : S1200x1200.Idx) (c : dot_S1200x256_S256x1200_S1200x1200_1_0_0_1_n_n.contr.Idx) :
    (dot_S1200x256_S256x1200_S1200x1200_1_0_0_1_n_n.rhsIdx i c 0).val = (c ⟨0, by decide⟩).val :=
  dot_S1200x256_S256x1200_S1200x1200_1_0_0_1_n_n.rhsIdx_val_of_single rfl i c
/-- … and the result's column on its second. -/
private theorem rhs_ax1 (i : S1200x1200.Idx) (c : dot_S1200x256_S256x1200_S1200x1200_1_0_0_1_n_n.contr.Idx) :
    (dot_S1200x256_S256x1200_S1200x1200_1_0_0_1_n_n.rhsIdx i c 1).val = (i 1).val := by
  unfold DotDims.rhsIdx
  rw [dif_neg (show ¬(1 : Fin S256x1200.rank) ∈ dot_S1200x256_S256x1200_S1200x1200_1_0_0_1_n_n.rhsBatch by decide),
    dif_pos (show (1 : Fin S256x1200.rank) ∈ dot_S1200x256_S256x1200_S1200x1200_1_0_0_1_n_n.rhsNonContracting by decide)]
  rfl

/-- The product into the zero table, at (p, q): the sum over k of the left operand at (p, k) times the right at (k, q). -/
private theorem mm_apply (L : FVec Ideal S1200x256 .bf16) (R : FVec Ideal S256x1200 .bf16) (p q : Fin 1200) :
    matmul dot_S1200x256_S256x1200_S1200x1200_1_0_0_1_n_n none L R (constant (F := Ideal) S1200x1200 .f32 0x00000000#32) (ix2 p q)
      = ∑ k : Fin 256, L (ix2 p k) * R (ix2 k q) := by
  simp only [matmul]
  rw [Ideal.matmul_constant_zero_apply, ← Equiv.sum_comp (contrEquiv1 dot_S1200x256_S256x1200_S1200x1200_1_0_0_1_n_n 256 rfl rfl).symm]
  refine Finset.sum_congr rfl fun k _ => ?_
  have hk := contrEquiv1_symm_val dot_S1200x256_S256x1200_S1200x1200_1_0_0_1_n_n 256 rfl rfl k
  have el : dot_S1200x256_S256x1200_S1200x1200_1_0_0_1_n_n.lhsIdx (ix2 p q) ((contrEquiv1 dot_S1200x256_S256x1200_S1200x1200_1_0_0_1_n_n 256 rfl rfl).symm k) = ix2 p k :=
    funext fun a => Fin.ext (by
      match a with
      | ⟨0, _⟩ => exact lhs_ax0 _ _
      | ⟨1, _⟩ => exact (lhs_ax1 _ _).trans hk)
  have er : dot_S1200x256_S256x1200_S1200x1200_1_0_0_1_n_n.rhsIdx (ix2 p q) ((contrEquiv1 dot_S1200x256_S256x1200_S1200x1200_1_0_0_1_n_n 256 rfl rfl).symm k) = ix2 k q :=
    funext fun a => Fin.ext (by
      match a with
      | ⟨0, _⟩ => exact (rhs_ax0 _ _).trans hk
      | ⟨1, _⟩ => exact rhs_ax1 _ _)
  rw [el, er]

/-- Entry (p, q) of the product table is the similarity of row p of the first table and row q of the second. -/
theorem pay1_apply (A B : Vec Ideal S1200x256 .f32) (p q : Fin 1200) :
    k0_pay1 (F := Ideal) A B (ix2 p q) = Cert.Spec.sim A B p q := by
  unfold k0_pay1
  refine (mm_apply _ _ p q).trans ?_
  unfold Cert.Spec.sim
  refine Finset.sum_congr rfl fun k _ => ?_
  refine congrArg₂ (· * ·) ?_ ?_
  · refine (truncf_apply (ψ := .bf16) _ bitsLt_bf16_f32 _).trans ?_
    refine (unit_apply (shapeCast S1200x256 A shapeCasts_S1200x256_S1200x256) _ _ _ _ _ p k).trans ?_
    rw [shapeCast_self]
  · refine (transpose_ix2_apply _ _ k q).trans ?_
    refine (truncf_apply (ψ := .bf16) _ bitsLt_bf16_f32 _).trans ?_
    exact unit_apply B _ _ _ _ _ q k

/-! ## The maxima -/

/-- The index of the block that reduces into column q at position p of the reduced first axis is (p, q). -/
private theorem lift_col {R C : Nat} (h : (⟨2, ![R, C]⟩ : Shape).Reduces [0] ⟨1, ![C]⟩) (q : Fin C) (p : Fin R) :
    h.lift (ix1 q) p = ix2 p q := by
  funext a; apply Fin.ext
  match a with
  | ⟨0, _⟩ => rfl
  | ⟨1, _⟩ => rfl

/-- A maximum over the first axis of a block, at column q: the fold of max, from the starting value, over the block's
    entries (p, q). -/
private theorem col_max_apply {R C : Nat} {φ : FTy} (src : FVec Ideal ⟨2, ![R, C]⟩ φ) (acc : BitVec φ.bits)
    (h : (⟨2, ![R, C]⟩ : Shape).Reduces [0] ⟨1, ![C]⟩) (hφ : FKind.Formats φ) (hacc : acc = FKind.maximumf.neutral φ hφ)
    (q : Fin C) :
    multiReduction .maximumf [0] ⟨1, ![C]⟩ src acc h hφ hacc (ix1 q)
      = (Finset.univ : Finset (Fin R)).fold max (Ideal.ofBits φ acc) (fun p => src (ix2 p q)) := by
  refine (Ideal.multiReduction_maximumf_single src acc h hφ hacc (ix1 q)).trans ?_
  exact congrArg (fun f => (Finset.univ : Finset (Fin R)).fold max (Ideal.ofBits φ acc) f)
    (funext fun p => congrArg src (lift_col h q p))

/-- Entry (0, r) of the first stored vector is the largest similarity in row r, r < 1000. -/
theorem pay2_apply (A B : Vec Ideal S1200x256 .f32) (r : Fin 1000) :
    k0_pay2 (F := Ideal) A B (ix2 (0 : Fin 1) r) = Cert.Spec.attSr A B r := by
  unfold k0_pay2
  refine (shapeCast_a_1a_apply _ _ (0 : Fin 1) r).trans ?_
  refine (extractStridedSlice_apply _ _ _ (ix1 r) (ix1 ⟨r.val, Nat.lt_trans r.isLt (by decide)⟩) (fun a => ?_)).trans ?_
  · match a with
    | ⟨0, _⟩ => exact (Nat.zero_add _).symm
  refine (Cert.LibRowReduce.row_max_apply _ _ _ _ _ _).trans ?_
  refine (congrArg (fun f => (Finset.univ : Finset (Fin 1200)).fold max (Ideal.ofBits .f32 0xFF800000#32) f)
    (funext fun q => pay1_apply A B _ q)).trans ?_
  rfl

/-- Entry (0, q) of the second stored vector is the largest similarity in column q. -/
theorem pay3_apply (A B : Vec Ideal S1200x256 .f32) (q : Fin 1200) :
    k0_pay3 (F := Ideal) A B (ix2 (0 : Fin 1) q) = Cert.Spec.colMax A B q := by
  unfold k0_pay3
  refine (shapeCast_a_1a_apply _ _ (0 : Fin 1) q).trans ?_
  refine (col_max_apply _ _ _ _ _ q).trans ?_
  refine (congrArg (fun f => (Finset.univ : Finset (Fin 1200)).fold max (Ideal.ofBits .f32 0xFF800000#32) f)
    (funext fun p => pay1_apply A B p q)).trans ?_
  rfl

end Cert.KernelIdeal.KPay0

end
-- ==== Proof.KHostA.lean ====
/- The host stretches up to the second region: what the first region finds, what it leaves, and the table row and
   padded word row the second region finds. -/
import proofs.«413616_j64639257805012_2_alg».proof.Proof.KDefs
import proofs.«413616_j64639257805012_2_alg».proof.Proof.KPay0
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

open scoped BigOperators

namespace Cert.KernelIdeal.KHostA

open Cert.KernelIdeal Cert.KernelIdeal.Gen Cert.KernelIdeal.KDefs
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The first region finds the extended first table and the second table. -/
theorem inA_eq (c : Dev nD) : inA m ρ c = padA m c := by
  show StableHlo.after hostOps0_1 (StableHlo.after hostOps0 (W0 m ρ c)) (Proc.devRef .tc main_v0) = _
  after_results
  rfl
theorem inB_eq (c : Dev nD) : inB m ρ c = argB m c := by
  show StableHlo.after hostOps0_1 (StableHlo.after hostOps0 (W0 m ρ c)) (Proc.devRef .tc main_arg1) = _
  after_results

/-! ## The first region: one grid point, every block a whole array -/

private theorem hz2 : (![0, 0] : Fin 2 → Nat) = fun _ => 0 := funext fun a => by fin_cases a <;> rfl

/-- The first input window's block at the one grid point is its whole array. -/
private theorem blkA (c : Dev nD) (t : Fin cfg0.N) : iblk0 (V2 m ρ) c 0 t = inA m ρ c := by
  obtain rfl := fin_N0 t
  have hz' : (fun a => win0_0.index t0_0 a * main_v0.ty.shape.size a) = fun _ => 0 := funext fun a => by fin_cases a <;> decide
  exact Memref.read_access_unit_zero (Elt Ideal) main_v0 hz' (fun a => by rw [congrFun hz' a]; simp) (inA m ρ c)

/-- So is the second's. -/
private theorem blkB (c : Dev nD) (t : Fin cfg0.N) : iblk0 (V2 m ρ) c 1 t = inB m ρ c := by
  obtain rfl := fin_N0 t
  have hz' : (fun a => win0_1.index t0_0 a * main_arg1.ty.shape.size a) = fun _ => 0 := funext fun a => by fin_cases a <;> decide
  exact Memref.read_access_unit_zero (Elt Ideal) main_arg1 hz' (fun a => by rw [congrFun hz' a]; simp) (inB m ρ c)

/-- What the one grid point writes back to the first result row is the whole block of the first stored vector of the
    two input arrays: the body stores it through the whole buffer and loads both inputs through theirs. -/
private theorem flushedSr (c : Dev nD) (t : Fin cfg0.N) :
    (dat0 (V2 m ρ) c).flushed 2 t
      = ((cfg0.win 2).blk t).view.read (Elt Ideal) (k0_pay2 (F := Ideal) (inA m ρ c) (inB m ρ c)) := by
  show (cfg0.win 2).cut (grid0.coords t) ((dat0 (V2 m ρ) c).after 2 t) = _
  rw [after0_2, blkA, blkB]
  unfold out0_2
  rw [View.canon_unit_zero hz2]
  simp only [View.ld_unit_zero (S := S1200x256) hz2]
  obtain rfl := fin_N0 t
  have hz' : (fun a => win0_2.index t0_0 a * main_v1_0.ty.shape.size a) = fun _ => 0 := funext fun a => by fin_cases a <;> decide
  exact (Memref.read_access_unit_zero (Elt Ideal) main_v1_0 hz' (fun a => by rw [congrFun hz' a]; simp) _).symm

/-- The same for the second result row and the second stored vector. -/
private theorem flushedTg (c : Dev nD) (t : Fin cfg0.N) :
    (dat0 (V2 m ρ) c).flushed 3 t
      = ((cfg0.win 3).blk t).view.read (Elt Ideal) (k0_pay3 (F := Ideal) (inA m ρ c) (inB m ρ c)) := by
  show (cfg0.win 3).cut (grid0.coords t) ((dat0 (V2 m ρ) c).after 3 t) = _
  rw [after0_3, blkA, blkB]
  unfold out0_3
  rw [View.canon_unit_zero hz2]
  simp only [View.ld_unit_zero (S := S1200x256) hz2]
  obtain rfl := fin_N0 t
  have hz' : (fun a => win0_3.index t0_0 a * main_v1_1.ty.shape.size a) = fun _ => 0 := funext fun a => by fin_cases a <;> decide
  exact (Memref.read_access_unit_zero (Elt Ideal) main_v1_1 hz' (fun a => by rw [congrFun hz' a]; simp) _).symm

/-- The one point's block covers the first result row, so the row ends holding the first stored vector. -/
private theorem arrSr (c : Dev nD) :
    (dat0 (V2 m ρ) c).arrAt 2 cfg0.N = k0_pay2 (F := Ideal) (inA m ρ c) (inB m ρ c) :=
  (dat0 (V2 m ρ) c).arrAt_eq_of_cover 2 (k0_pay2 (F := Ideal) (inA m ρ c) (inB m ρ c)) (fun t _ => flushedSr m ρ c t) fun i =>
    ⟨t0_0, rfl, by
      show i ∈ ((View.whole main_v1_0).slice (win0_2.rect t0_0)).set
      rw [View.set_slice_whole, Rect.mem_set_unit]
      intro a
      have h0 : (i 0 : Nat) < 1 := (i 0).isLt
      have h1 : (i 1 : Nat) < 1000 := (i 1).isLt
      match a with
      | ⟨0, _⟩ =>
        show win0_2.index t0_0 0 * win0_2.size 0 ≤ (i 0 : Nat) ∧ (i 0 : Nat) < win0_2.index t0_0 0 * win0_2.size 0 + win0_2.xsize (grid0.coords t0_0) 0
        rw [show win0_2.index t0_0 0 * win0_2.size 0 = 0 from by decide, show win0_2.xsize (grid0.coords t0_0) 0 = 1 from by decide]; omega
      | ⟨1, _⟩ =>
        show win0_2.index t0_0 1 * win0_2.size 1 ≤ (i 1 : Nat) ∧ (i 1 : Nat) < win0_2.index t0_0 1 * win0_2.size 1 + win0_2.xsize (grid0.coords t0_0) 1
        rw [show win0_2.index t0_0 1 * win0_2.size 1 = 0 from by decide, show win0_2.xsize (grid0.coords t0_0) 1 = 1000 from by decide]; omega⟩

/-- And the second result row the second stored vector. -/
private theorem arrTg (c : Dev nD) :
    (dat0 (V2 m ρ) c).arrAt 3 cfg0.N = k0_pay3 (F := Ideal) (inA m ρ c) (inB m ρ c) :=
  (dat0 (V2 m ρ) c).arrAt_eq_of_cover 3 (k0_pay3 (F := Ideal) (inA m ρ c) (inB m ρ c)) (fun t _ => flushedTg m ρ c t) fun i =>
    ⟨t0_0, rfl, by
      show i ∈ ((View.whole main_v1_1).slice (win0_3.rect t0_0)).set
      rw [View.set_slice_whole, Rect.mem_set_unit]
      intro a
      have h0 : (i 0 : Nat) < 1 := (i 0).isLt
      have h1 : (i 1 : Nat) < 1200 := (i 1).isLt
      match a with
      | ⟨0, _⟩ =>
        show win0_3.index t0_0 0 * win0_3.size 0 ≤ (i 0 : Nat) ∧ (i 0 : Nat) < win0_3.index t0_0 0 * win0_3.size 0 + win0_3.xsize (grid0.coords t0_0) 0
        rw [show win0_3.index t0_0 0 * win0_3.size 0 = 0 from by decide, show win0_3.xsize (grid0.coords t0_0) 0 = 1 from by decide]; omega
      | ⟨1, _⟩ =>
        show win0_3.index t0_0 1 * win0_3.size 1 ≤ (i 1 : Nat) ∧ (i 1 : Nat) < win0_3.index t0_0 1 * win0_3.size 1 + win0_3.xsize (grid0.coords t0_0) 1
        rw [show win0_3.index t0_0 1 * win0_3.size 1 = 0 from by decide, show win0_3.xsize (grid0.coords t0_0) 1 = 1200 from by decide]; omega⟩

/-- The first region leaves the first attention vector in its first result row (its one grid point's block is the
    whole row) -/
theorem outSr_apply (c : Dev nD) (r : Fin 1000) :
    outSr m ρ c (ix2 (0 : Fin 1) r) = Cert.Spec.attSr (padA m c) (argB m c) r := by
  have h : outSr m ρ c = k0_pay2 (F := Ideal) (inA m ρ c) (inB m ρ c) := (W3_arr m ρ c 2).trans (arrSr m ρ c)
  rw [h, inA_eq, inB_eq]
  exact KPay0.pay2_apply _ _ r
/-- and the second in its second. -/
theorem outTg_apply (c : Dev nD) (q : Fin 1200) :
    outTg m ρ c (ix2 (0 : Fin 1) q) = Cert.Spec.colMax (padA m c) (argB m c) q := by
  have h : outTg m ρ c = k0_pay3 (F := Ideal) (inA m ρ c) (inB m ρ c) := (W3_arr m ρ c 3).trans (arrTg m ρ c)
  rw [h, inA_eq, inB_eq]
  exact KPay0.pay3_apply _ _ q

/-! ## The host operations between the first two regions, read at an index -/

/-- A [1, n] row flattened, extended to L entries by a constant, narrowed and laid out as a [1, L] row: entry r is the
    row's entry r below n and the constant from n on. -/
private theorem padRow_apply (x : Vec Ideal S1x1000 .f32) (v : Vec Ideal S_ .f32) (r : Fin 1024) :
    shapeCast S1x1024 (truncf (F := Ideal) .bf16
      (pad S1024 ![0] ![24] ![0] (shapeCast S1000 x shapeCasts_S1x1000_S1000) v pads_S1000_S1024_0240 h_S_) bitsLt_bf16_f32)
      shapeCasts_S1024_S1x1024 (ix2 (0 : Fin 1) r)
    = if h : r.val < 1000 then x (ix2 (0 : Fin 1) ⟨r.val, h⟩) else v (Shape.Idx.first h_S_) := by
  refine (shapeCast_apply _ _ (ix2 (0 : Fin 1) r) (ix1 r) ?_).trans ?_
  · rw [Shape.rowMajor_val_one, Shape.rowMajor_val_two]
    show r.val = 0 * 1024 + r.val
    omega
  refine (truncf_apply (ψ := .bf16) _ bitsLt_bf16_f32 _).trans ?_
  by_cases h : r.val < 1000
  · rw [dif_pos h]
    refine (pad_apply_of_inside _ _ _ _ _ _ _ (ix1 r) (ix1 (⟨r.val, h⟩ : Fin 1000)) (fun a => ?_)).trans ?_
    · match a with
      | ⟨0, _⟩ => show r.val = 0 + r.val * (0 + 1); omega
    refine shapeCast_apply _ _ _ (ix2 (0 : Fin 1) (⟨r.val, h⟩ : Fin 1000)) ?_
    rw [Shape.rowMajor_val_one, Shape.rowMajor_val_two]
    show 0 * 1000 + r.val = r.val
    omega
  · rw [dif_neg h]
    refine pad_apply_of_not_inside _ _ _ _ _ _ _ (ix1 r) (0 : Fin 1) (fun hh => h ?_)
    have h2 : (r.val - 0) / (0 + 1) < 1000 := hh.2.2
    omega

/-- A vector of n words extended to L by a constant word and laid out as a [1, L] row: entry j is the vector's entry j
    below n and the constant from n on. -/
private theorem padWords_apply (x : Vec Ideal S2000000 .i32) (v : Vec Ideal S_ .i32) (j : Fin 2007040) :
    shapeCast S1x2007040 (pad S2007040 ![0] ![7040] ![0] x v pads_S2000000_S2007040_070400 h_S_)
      shapeCasts_S2007040_S1x2007040 (ix2 (0 : Fin 1) j)
    = if h : j.val < 2000000 then x (ix1 ⟨j.val, h⟩) else v (Shape.Idx.first h_S_) := by
  refine (shapeCast_apply _ _ (ix2 (0 : Fin 1) j) (ix1 j) ?_).trans ?_
  · rw [Shape.rowMajor_val_one, Shape.rowMajor_val_two]
    show j.val = 0 * 2007040 + j.val
    omega
  by_cases h : j.val < 2000000
  · rw [dif_pos h]
    refine pad_apply_of_inside _ _ _ _ _ _ _ (ix1 j) (ix1 (⟨j.val, h⟩ : Fin 2000000)) (fun a => ?_)
    match a with
    | ⟨0, _⟩ => show j.val = 0 + j.val * (0 + 1); omega
  · rw [dif_neg h]
    refine pad_apply_of_not_inside _ _ _ _ _ _ _ (ix1 j) (0 : Fin 1) (fun hh => h ?_)
    have h2 : (j.val - 0) / (0 + 1) < 2000000 := hh.2.2
    omega

/-- The table row as the host operations' term of the first region's first result row. -/
private theorem tblSr_eq (c : Dev nD) :
    tblSr m ρ c = shapeCast S1x1024 (truncf (F := Ideal) .bf16
      (pad S1024 ![0] ![24] ![0] (shapeCast S1000 (outSr m ρ c) shapeCasts_S1x1000_S1000)
        (sitofp (F := Ideal) .f32 (constantI S_ 32 0#32)) pads_S1000_S1024_0240 h_S_) bitsLt_bf16_f32) shapeCasts_S1024_S1x1024 := by
  show StableHlo.after hostOps1_4 (StableHlo.after hostOps1_3 (StableHlo.after hostOps1_2 (StableHlo.after hostOps1_1
    (StableHlo.after hostOps1 (W3 m ρ c))))) (Proc.devRef .tc main_v6) = _
  after_results
  rfl

/-- The first graph's relation words reach the first region's exit as launched: no host operation before it and no
    window of it writes them. -/
private theorem argRs_at_exit (c : Dev nD) : W3 m ρ c (Proc.devRef .tc main_arg2) = argRs m c := by
  rw [W3_of_ne m ρ c main_arg2 (by decide)]
  show StableHlo.after hostOps0_1 (StableHlo.after hostOps0 (W0 m ρ c)) (Proc.devRef .tc main_arg2) = _
  after_results

/-- The word row as the host operations' term of the first graph's relation words. -/
private theorem wordsSr_eq (c : Dev nD) :
    wordsSr m ρ c = shapeCast S1x2007040 (pad S2007040 ![0] ![7040] ![0] (argRs m c)
      (constantI S_ 32 4294967295#32) pads_S2000000_S2007040_070400 h_S_) shapeCasts_S2007040_S1x2007040 := by
  show StableHlo.after hostOps1_4 (StableHlo.after hostOps1_3 (StableHlo.after hostOps1_2 (StableHlo.after hostOps1_1
    (StableHlo.after hostOps1 (W3 m ρ c))))) (Proc.devRef .tc main_v8) = _
  after_results
  rw [argRs_at_exit]
  simp only [StableHlo.TRef.ofBuf, StableHlo.TRef.toBuf, cast_eq, id]
  rfl

/-- The second region's table row is the first attention vector followed by 24 zeros. -/
theorem tblSr_apply (c : Dev nD) (r : Fin 1024) :
    tblSr m ρ c (ix2 (0 : Fin 1) r) = if h : r.val < 1000 then outSr m ρ c (ix2 (0 : Fin 1) ⟨r.val, h⟩) else 0 := by
  rw [tblSr_eq]
  refine (padRow_apply _ _ r).trans ?_
  by_cases h : r.val < 1000
  · rw [dif_pos h, dif_pos h]
  · rw [dif_neg h, dif_neg h]
    -- the pad value is the zero word read as a signed integer
    show (((0#32 : BitVec 32).toInt : ℝ) : EReal) = 0
    simp

/-- Its word row is the first graph's relation words followed by 7040 words of all ones. -/
theorem wordsSr_apply (c : Dev nD) (j : Fin 2007040) :
    wordsSr m ρ c (ix2 (0 : Fin 1) j) = if h : j.val < 2000000 then argRs m c (ix1 ⟨j.val, h⟩) else 4294967295#32 := by
  rw [wordsSr_eq]
  exact padWords_apply _ _ j

end Cert.KernelIdeal.KHostA

end
-- ==== Proof.KHostB.lean ====
/- The host stretches between the second and the third region: the table row and padded word row the third region
   finds. The second attention vector is carried past the second region, which does not write it. -/
import proofs.«413616_j64639257805012_2_alg».proof.Proof.KDefs
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

open scoped BigOperators

namespace Cert.KernelIdeal.KHostB

open Cert.KernelIdeal Cert.KernelIdeal.Gen Cert.KernelIdeal.KDefs
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Reading the host operations at an index -/

section Generic
variable {α : Type}

/-- A one-axis pad with no low and no interior padding reads the operand below the operand's length and the
    padding value from there on. -/
private theorem pad_high_apply {n k hi : Nat} (x : (⟨1, ![n]⟩ : Shape).Idx → α) {u : Shape} (v : u.Idx → α)
    (hp : (⟨1, ![n]⟩ : Shape).Pads (![0] : Fin 1 → Nat) ![hi] ![0] ⟨1, ![k]⟩) (hu : 0 < u.numel) (j : Fin k) :
    pad ⟨1, ![k]⟩ ![0] ![hi] ![0] x v hp hu (ix1 j)
      = if h : j.val < n then x (ix1 ⟨j.val, h⟩) else v (Shape.Idx.first hu) := by
  by_cases h : j.val < n
  · rw [dif_pos h]
    exact pad_apply_of_inside _ _ _ x v hp hu _ (ix1 (⟨j.val, h⟩ : Fin n)) (by
      intro a
      have ha : a = 0 := Subsingleton.elim _ _
      subst ha
      show j.val = 0 + j.val * (0 + 1); omega)
  · rw [dif_neg h]
    exact pad_apply_of_not_inside _ _ _ x v hp hu _ (0 : Fin 1) (by
      intro hin
      have e : (j.val - 0) / (0 + 1) < n := hin.2.2
      exact h (by omega))

end Generic

/-- The zero word converted to a float is zero. -/
private theorem sitofp_zero_apply (i : S_.Idx) :
    (sitofp (F := Ideal) .f32 (constantI S_ 32 0#32) : Vec Ideal S_ .f32) i = 0 := by
  show (((0#32 : BitVec 32).toInt : ℝ) : EReal) = 0
  simp

/-! ## The stretches' results, over any contents before them -/

/-- A stretch leaves a buffer none of its operations writes as it was. -/
local macro "keeps% " ops:ident b:term : term =>
  `(StableHlo.after_of_forall_not_mem (b := Proc.devRef .tc $b) _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Folds
variable (V : Valuation τ sig (Elt Ideal))

private theorem after1_v3 :
    StableHlo.after hostOps1 V (Proc.devRef .tc main_v3)
      = (shapeCast S1200 (V (Proc.devRef .tc main_v1_1) : Vec Ideal S1x1200 .f32) shapeCasts_S1x1200_S1200 : Vec Ideal S1200 .f32) := by
  after_results; rfl

private theorem after2_c2 :
    StableHlo.after hostOps2 V (Proc.devRef .tc main_c_2) = (constantI S_ 32 0#32 : IVec S_ 32) := by
  after_results

private theorem after2_1_v12 :
    StableHlo.after hostOps2_1 V (Proc.devRef .tc main_v12)
      = (pad S1280 ![0] ![80] ![0] (V (Proc.devRef .tc main_v3) : Vec Ideal S1200 .f32)
          (sitofp (F := Ideal) .f32 (V (Proc.devRef .tc main_c_2) : IVec S_ 32)) pads_S1200_S1280_0800 h_S_ : Vec Ideal S1280 .f32) := by
  after_results; rfl

private theorem after2_2_v14 :
    StableHlo.after hostOps2_2 V (Proc.devRef .tc main_v14)
      = (shapeCast S1x1280 (truncf (F := Ideal) .bf16 (V (Proc.devRef .tc main_v12) : Vec Ideal S1280 .f32) bitsLt_bf16_f32)
          shapeCasts_S1280_S1x1280 : Vec Ideal S1x1280 .bf16) := by
  after_results; rfl

end Folds

/-! ## The second attention vector's way to the third region -/

/-- The flattened second attention vector, written after the first region, is untouched up to the third region's
    padding stretch: the stretches between do not write it and the second region does not stage it. -/
private theorem v3_at_W10 (c : Dev nD) :
    W10 m ρ c (Proc.devRef .tc main_v3)
      = (shapeCast S1200 (outTg m ρ c) shapeCasts_S1x1200_S1200 : Vec Ideal S1200 .f32) :=
  calc W10 m ρ c (Proc.devRef .tc main_v3)
    _ = W9 m ρ c (Proc.devRef .tc main_v3) := keeps% hostOps2 main_v3
    _ = W8 m ρ c (Proc.devRef .tc main_v3) := W9_of_ne m ρ c main_v3 (by decide)
    _ = W7 m ρ c (Proc.devRef .tc main_v3) := keeps% hostOps1_4 main_v3
    _ = W6 m ρ c (Proc.devRef .tc main_v3) := keeps% hostOps1_3 main_v3
    _ = W5 m ρ c (Proc.devRef .tc main_v3) := keeps% hostOps1_2 main_v3
    _ = W4 m ρ c (Proc.devRef .tc main_v3) := keeps% hostOps1_1 main_v3
    _ = _ := after1_v3 (W3 m ρ c)

/-- The third region's table row as the host operations' term over the second attention vector. -/
private theorem tblTg_eq (c : Dev nD) :
    tblTg m ρ c
      = (shapeCast S1x1280 (truncf (F := Ideal) .bf16
            (pad S1280 ![0] ![80] ![0] (shapeCast S1200 (outTg m ρ c) shapeCasts_S1x1200_S1200 : Vec Ideal S1200 .f32)
              (sitofp (F := Ideal) .f32 (constantI S_ 32 0#32)) pads_S1200_S1280_0800 h_S_ : Vec Ideal S1280 .f32) bitsLt_bf16_f32)
          shapeCasts_S1280_S1x1280 : Vec Ideal S1x1280 .bf16) :=
  calc W14 m ρ c (Proc.devRef .tc main_v14)
    _ = W13 m ρ c (Proc.devRef .tc main_v14) := keeps% hostOps2_4 main_v14
    _ = W12 m ρ c (Proc.devRef .tc main_v14) := keeps% hostOps2_3 main_v14
    _ = _ := after2_2_v14 (W11 m ρ c)
    _ = _ := by
      have e1 : W11 m ρ c (Proc.devRef .tc main_v12) = _ := after2_1_v12 (W10 m ρ c)
      have e2 : W10 m ρ c (Proc.devRef .tc main_c_2) = _ := after2_c2 (W9 m ρ c)
      rw [e1, v3_at_W10 m ρ c, e2]

/-- The third region's table row is the second attention vector followed by 80 zeros. -/
theorem tblTg_apply (c : Dev nD) (q : Fin 1280) :
    tblTg m ρ c (ix2 (0 : Fin 1) q) = if h : q.val < 1200 then outTg m ρ c (ix2 (0 : Fin 1) ⟨q.val, h⟩) else 0 := by
  rw [tblTg_eq m ρ c, shapeCast_a_1a_apply, truncf_apply, pad_high_apply]
  by_cases h : q.val < 1200
  · simp only [dif_pos h]
    exact shapeCast_1a_a_apply _ _ _
  · simp only [dif_neg h]
    exact sitofp_zero_apply _

/-! ## The second graph's relation words' way to the third region -/

section Folds
variable (V : Valuation τ sig (Elt Ideal))

private theorem after2_2_c3 :
    StableHlo.after hostOps2_2 V (Proc.devRef .tc main_c_3) = (constantI S_ 32 4294967295#32 : IVec S_ 32) := by
  after_results

private theorem after2_3_v15 :
    StableHlo.after hostOps2_3 V (Proc.devRef .tc main_v15)
      = (pad S2007040 ![0] ![7040] ![0] (V (Proc.devRef .tc main_arg3) : Vec Ideal S2000000 .i32)
          (V (Proc.devRef .tc main_c_3) : IVec S_ 32) pads_S2000000_S2007040_070400 h_S_ : Vec Ideal S2007040 .i32) := by
  after_results; rfl

private theorem after2_4_v16 :
    StableHlo.after hostOps2_4 V (Proc.devRef .tc main_v16)
      = (shapeCast S1x2007040 (V (Proc.devRef .tc main_v15) : Vec Ideal S2007040 .i32) shapeCasts_S2007040_S1x2007040
          : Vec Ideal S1x2007040 .i32) := by
  after_results; rfl

end Folds

/-- No host operation and no region before the third region's word padding writes the second graph's relation
    words: there they are as launched. -/
private theorem arg3_at_W12 (c : Dev nD) : W12 m ρ c (Proc.devRef .tc main_arg3) = argRt m c :=
  calc W12 m ρ c (Proc.devRef .tc main_arg3)
    _ = W11 m ρ c (Proc.devRef .tc main_arg3) := keeps% hostOps2_2 main_arg3
    _ = W10 m ρ c (Proc.devRef .tc main_arg3) := keeps% hostOps2_1 main_arg3
    _ = W9 m ρ c (Proc.devRef .tc main_arg3) := keeps% hostOps2 main_arg3
    _ = W8 m ρ c (Proc.devRef .tc main_arg3) := W9_of_ne m ρ c main_arg3 (by decide)
    _ = W7 m ρ c (Proc.devRef .tc main_arg3) := keeps% hostOps1_4 main_arg3
    _ = W6 m ρ c (Proc.devRef .tc main_arg3) := keeps% hostOps1_3 main_arg3
    _ = W5 m ρ c (Proc.devRef .tc main_arg3) := keeps% hostOps1_2 main_arg3
    _ = W4 m ρ c (Proc.devRef .tc main_arg3) := keeps% hostOps1_1 main_arg3
    _ = W3 m ρ c (Proc.devRef .tc main_arg3) := keeps% hostOps1 main_arg3
    _ = W2 m ρ c (Proc.devRef .tc main_arg3) := W3_of_ne m ρ c main_arg3 (by decide)
    _ = W1 m ρ c (Proc.devRef .tc main_arg3) := keeps% hostOps0_1 main_arg3
    _ = W0 m ρ c (Proc.devRef .tc main_arg3) := keeps% hostOps0 main_arg3
    _ = argRt m c := rfl

/-- The third region's word row as the host operations' term over the relation words. -/
private theorem wordsTg_eq (c : Dev nD) :
    wordsTg m ρ c
      = (shapeCast S1x2007040
          (pad S2007040 ![0] ![7040] ![0] (argRt m c) (constantI S_ 32 4294967295#32 : IVec S_ 32)
            pads_S2000000_S2007040_070400 h_S_ : Vec Ideal S2007040 .i32)
          shapeCasts_S2007040_S1x2007040 : Vec Ideal S1x2007040 .i32) :=
  calc W14 m ρ c (Proc.devRef .tc main_v16)
    _ = _ := after2_4_v16 (W13 m ρ c)
    _ = _ := by
      have e1 : W13 m ρ c (Proc.devRef .tc main_v15) = _ := after2_3_v15 (W12 m ρ c)
      have e2 : W12 m ρ c (Proc.devRef .tc main_c_3) = _ := after2_2_c3 (W11 m ρ c)
      rw [e1, arg3_at_W12 m ρ c, e2]

/-- Its word row is the second graph's relation words followed by 7040 words of all ones. -/
theorem wordsTg_apply (c : Dev nD) (j : Fin 2007040) :
    wordsTg m ρ c (ix2 (0 : Fin 1) j) = if h : j.val < 2000000 then argRt m c (ix1 ⟨j.val, h⟩) else 4294967295#32 := by
  rw [wordsTg_eq m ρ c, shapeCast_a_1a_apply, pad_high_apply]
  by_cases h : j.val < 2000000
  · simp only [dif_pos h]
  · simp only [dif_neg h]
    rfl

end Cert.KernelIdeal.KHostB

end
-- ==== Proof.KTail.lean ====
/- The last host stretch: the result is the first 2,000,000 lanes of the second region's result row followed by the
   first 2,000,000 lanes of the third's. The second region's row is cut to length before the third region runs and
   carried past it. -/
import proofs.«413616_j64639257805012_2_alg».proof.Proof.KDefs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.KTail

open Cert.KernelIdeal Cert.KernelIdeal.Gen Cert.KernelIdeal.KDefs
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Reading the host operations at an index -/

section Generic
variable {α : Type}

/-- A row `[1, k]` flattened and cut to its first `n` entries reads the row at the same lane. -/
private theorem row_prefix_apply {n k : Nat} (X : (⟨2, ![1, k]⟩ : Shape).Idx → α)
    (h1 : (⟨2, ![1, k]⟩ : Shape).ShapeCasts ⟨1, ![k]⟩) (hs : (⟨1, ![k]⟩ : Shape).Slices ![0] ⟨1, ![n]⟩)
    (j : Fin n) (hj : j.val < k) :
    extractStridedSlice ⟨1, ![n]⟩ ![0] (shapeCast ⟨1, ![k]⟩ X h1) hs (ix1 j) = X (ix2 (0 : Fin 1) ⟨j.val, hj⟩) := by
  refine (extractStridedSlice_apply _ _ hs (ix1 j) (ix1 (⟨j.val, hj⟩ : Fin k)) (by
    intro a
    have ha : a = 0 := Subsingleton.elim _ _
    subst ha
    show j.val = 0 + j.val; omega)).trans ?_
  exact shapeCast_1a_a_apply _ _ _

end Generic

/-! ## The stretches' results, over any contents before them -/

/-- A stretch leaves a buffer none of its operations writes as it was. -/
local macro "keeps% " ops:ident b:term : term =>
  `(StableHlo.after_of_forall_not_mem (b := Proc.devRef .tc $b) _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- A result row flattened and cut to its first 2,000,000 lanes. -/
private abbrev cut (X : Vec Ideal S1x2007040 .f32) : Vec Ideal S2000000 .f32 :=
  extractStridedSlice S2000000 ![0] (shapeCast S2007040 X shapeCasts_S1x2007040_S2007040 : Vec Ideal S2007040 .f32)
    slices_S2007040_S2000000_0

section Folds
variable (V : Valuation τ sig (Elt Ideal))

private theorem after2_v11 :
    StableHlo.after hostOps2 V (Proc.devRef .tc main_v11) = cut (V (Proc.devRef .tc main_v9)) := by
  after_results; rfl

private theorem after3_v20 :
    StableHlo.after hostOps3 V (Proc.devRef .tc main_v20)
      = (concatenate S4000000 0
          [⟨S2000000, (V (Proc.devRef .tc main_v11) : Vec Ideal S2000000 .f32)⟩,
           ⟨S2000000, cut (V (Proc.devRef .tc main_v17))⟩]
          concatenates_S2000000_S2000000_S4000000_d0 : Vec Ideal S4000000 .f32) := by
  after_results; rfl

end Folds

/-! ## The second region's cut row's way to the last stretch -/

/-- The second region's result row, cut to length right after that region, is untouched up to the last stretch: the
    stretches between do not write it and the third region does not stage it. -/
private theorem v11_at_W15 (c : Dev nD) :
    W15 m ρ c (Proc.devRef .tc main_v11) = cut (resSr m ρ c) :=
  calc W15 m ρ c (Proc.devRef .tc main_v11)
    _ = W14 m ρ c (Proc.devRef .tc main_v11) := W15_of_ne m ρ c main_v11 (by decide)
    _ = W13 m ρ c (Proc.devRef .tc main_v11) := keeps% hostOps2_4 main_v11
    _ = W12 m ρ c (Proc.devRef .tc main_v11) := keeps% hostOps2_3 main_v11
    _ = W11 m ρ c (Proc.devRef .tc main_v11) := keeps% hostOps2_2 main_v11
    _ = W10 m ρ c (Proc.devRef .tc main_v11) := keeps% hostOps2_1 main_v11
    _ = _ := after2_v11 (W9 m ρ c)

/-- The program's result as the two cut rows joined. -/
private theorem result_eq (c : Dev nD) :
    result m ρ c
      = (concatenate S4000000 0 [⟨S2000000, cut (resSr m ρ c)⟩, ⟨S2000000, cut (resTg m ρ c)⟩]
          concatenates_S2000000_S2000000_S4000000_d0 : Vec Ideal S4000000 .f32) :=
  calc W16 m ρ c (Proc.devRef .tc main_v20)
    _ = _ := after3_v20 (W15 m ρ c)
    _ = _ := by rw [v11_at_W15 m ρ c]

theorem result_left (c : Dev nD) (i : S4000000.Idx) (h : (i 0).val < 2000000) :
    result m ρ c i = resSr m ρ c (ix2 (0 : Fin 1) ⟨(i 0).val, Nat.lt_trans h (by decide)⟩) := by
  rw [result_eq m ρ c]
  refine (concatenate_pair_apply_left _ _ _ concatenates_S2000000_S2000000_S4000000_d0 i rfl
    (ix1 (⟨(i 0).val, h⟩ : Fin 2000000)) (fun b => by
      have hb : b = 0 := Subsingleton.elim _ _
      subst hb
      rfl)).trans ?_
  exact row_prefix_apply _ _ _ _ _

theorem result_right (c : Dev nD) (i : S4000000.Idx) (h : ¬ (i 0).val < 2000000) :
    result m ρ c i = resTg m ρ c (ix2 (0 : Fin 1) ⟨(i 0).val - 2000000, by
      have h4 : (i 0).val < 4000000 := (i 0).isLt
      omega⟩) := by
  have h4 : (i 0).val < 4000000 := (i 0).isLt
  rw [result_eq m ρ c]
  refine (concatenate_pair_apply_right _ _ _ concatenates_S2000000_S2000000_S4000000_d0 i rfl rfl
    (ix1 (⟨(i 0).val - 2000000, by omega⟩ : Fin 2000000))
    (fun b hb => absurd (Subsingleton.elim _ _) hb)
    (by show (i 0).val - 2000000 + 2000000 = (i 0).val; omega)).trans ?_
  exact row_prefix_apply _ _ _ _ _

end Cert.KernelIdeal.KTail

end
-- ==== Proof.KBody1.lean ====
/- The first lookup body: what one grid point leaves in its output block, read at an index. -/
import proofs.«413616_j64639257805012_2_alg».proof.Proof.Gen.KernelIdeal.Frame
import proofs.«413616_j64639257805012_2_alg».proof.Proof.Spec
import proofs.«413616_j64639257805012_2_alg».proof.Proof.LibBlockOps
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KBody1

open Cert.KernelIdeal Cert.KernelIdeal.Gen
open Idealize.ShloMosaic Idealize.ShloMosaic.TcCoe Idealize.ShloMosaic.ValueIdx Idealize.SL.Sem

/-! ## The mathematics: a product against one-hot columns picks one table entry -/

/-- The lookup's summand at table position `m`: the entry there when `m` is the word `w`, nothing otherwise, and
    nothing past the table's end. -/
def pick (tbl : Fin 1024 → EReal) (w : BitVec 32) (m : ℕ) : EReal :=
  if h : m < 1024 then tbl ⟨m, h⟩ * (if BitVec.ofNat 32 m = w then 1 else 0) else 0

/-- A table position, as a 32-bit word, is the word `w` exactly when it is `w`'s value: positions are far below 2^32. -/
theorem word_eq_iff (w : BitVec 32) (m : ℕ) (hm : m < 1024) : BitVec.ofNat 32 m = w ↔ m = w.toNat := by
  rw [← BitVec.toNat_inj, BitVec.toNat_ofNat, Nat.mod_eq_of_lt (by omega)]

/-- Over the whole table the summands add up to the one entry the word names, or to nothing when the word names none:
    every other summand is an entry times zero, which is zero for every extended real. -/
theorem sum_pick (tbl : Fin 1024 → EReal) (w : BitVec 32) :
    ∑ m ∈ Finset.range 1024, pick tbl w m = if h : w.toNat < 1024 then tbl ⟨w.toNat, h⟩ else 0 := by
  by_cases h : w.toNat < 1024
  · rw [dif_pos h, Finset.sum_eq_single_of_mem w.toNat (Finset.mem_range.mpr h)]
    · unfold pick
      rw [dif_pos h, if_pos ((word_eq_iff w _ h).mpr rfl), mul_one]
    · intro m hm hne
      have hm' := Finset.mem_range.mp hm
      unfold pick
      rw [dif_pos hm', if_neg (fun e => hne ((word_eq_iff w m hm').mp e)), mul_zero]
  · rw [dif_neg h]
    refine Finset.sum_eq_zero fun m hm => ?_
    have hm' := Finset.mem_range.mp hm
    unfold pick
    rw [dif_pos hm', if_neg (fun e => h (by rw [← (word_eq_iff w m hm').mp e]; exact hm')), mul_zero]

/-- The summands of the first `n + 1` chunks of 128 positions are those of the first `n` and those of chunk `n`. -/
theorem sum_pick_succ (tbl : Fin 1024 → EReal) (w : BitVec 32) (n : ℕ) :
    ∑ m ∈ Finset.range (128 * (n + 1)), pick tbl w m
      = ∑ m ∈ Finset.range (128 * n), pick tbl w m + ∑ r : Fin 128, pick tbl w (128 * n + r.val) := by
  rw [show 128 * (n + 1) = 128 * n + 128 by ring, Finset.sum_range_add, Finset.sum_range (fun x => pick tbl w (128 * n + x))]

/-! ## The trip's arithmetic read at a lane -/

/-- A 32-bit comparison for equality, widened and converted to a float, is one where the words agree and zero elsewhere. -/
theorem hot_entry (a b : BitVec 32) :
    (FloatOps.sitofp (F := Ideal) .f32 ((IntOp.cmpi .eq a b).setWidth 32) : EReal) = if a = b then 1 else 0 := by
  by_cases h : a = b
  · subst h
    rw [if_pos rfl, show IntOp.cmpi .eq a a = 1#1 by simp [IntOp.cmpi]]
    show ((((1#1 : BitVec 1).setWidth 32).toInt : ℝ) : EReal) = 1
    rw [show ((1#1 : BitVec 1).setWidth 32).toInt = 1 by decide]
    simp
  · rw [if_neg h, show IntOp.cmpi .eq a b = 0#1 by
      show BitVec.ofBool (a == b) = 0#1
      rw [beq_false_of_ne h]; rfl]
    show ((((0#1 : BitVec 1).setWidth 32).toInt : ℝ) : EReal) = 0
    rw [show ((0#1 : BitVec 1).setWidth 32).toInt = 0 by decide]
    simp

/-- Entry (r, j) of the one-hot block: row `r` carries the word `base + r`, column `j` the relation word of lane `j`,
    and the entry is one where the two agree. -/
theorem hot_apply (base : BitVec 32) (v : IVec S1x8192 32) (r : Fin 128) (j : Fin 8192) :
    (truncf .bf16 (sitofp (F := Ideal) .f32 (extui 32 (cmpi .eq (addi (broadcast S128x8192 base) (iota .tc S128x8192 32 [0] iota_S128x8192_d0_w32))
        (broadcastTo S128x8192 v broadcasts_S1x8192_S128x8192)) natLt_1_32)) bitsLt_bf16_f32 : FVec Ideal S128x8192 .bf16) (ix2 r j)
      = if base + BitVec.ofNat 32 r.val = v (ix2 (0 : Fin 1) j) then 1 else 0 := by
  show FloatOps.sitofp (F := Ideal) .f32 ((IntOp.cmpi .eq (base + iota .tc S128x8192 32 [0] iota_S128x8192_d0_w32 (ix2 r j))
      (broadcastTo S128x8192 v broadcasts_S1x8192_S128x8192 (ix2 r j))).setWidth 32) = _
  rw [iota_single_apply, Cert.LibBlockOps.row_apply]
  exact hot_entry _ _

/-- The product's left operand index at output (0, j) and contraction position q: row 0 ... -/
theorem lhs_row (i : S1x8192.Idx) (q : dot_S1x128_S128x8192_S1x8192_1_0_0_1_n_n.contr.Idx) :
    (dot_S1x128_S128x8192_S1x8192_1_0_0_1_n_n.lhsIdx i q 0).val = (i 0).val := by
  unfold DotDims.lhsIdx
  rw [dif_neg (show ¬(0 : Fin S1x128.rank) ∈ dot_S1x128_S128x8192_S1x8192_1_0_0_1_n_n.lhsBatch by decide), dif_pos (show (0 : Fin S1x128.rank) ∈ dot_S1x128_S128x8192_S1x8192_1_0_0_1_n_n.lhsNonContracting by decide)]
  rfl
/-- ... and column q; -/
theorem lhs_col (i : S1x8192.Idx) (q : dot_S1x128_S128x8192_S1x8192_1_0_0_1_n_n.contr.Idx) :
    (dot_S1x128_S128x8192_S1x8192_1_0_0_1_n_n.lhsIdx i q 1).val = (q ⟨0, by decide⟩).val :=
  dot_S1x128_S128x8192_S1x8192_1_0_0_1_n_n.lhsIdx_val_of_single rfl i q
/-- the right operand's: row q ... -/
theorem rhs_row (i : S1x8192.Idx) (q : dot_S1x128_S128x8192_S1x8192_1_0_0_1_n_n.contr.Idx) :
    (dot_S1x128_S128x8192_S1x8192_1_0_0_1_n_n.rhsIdx i q 0).val = (q ⟨0, by decide⟩).val :=
  dot_S1x128_S128x8192_S1x8192_1_0_0_1_n_n.rhsIdx_val_of_single rfl i q
/-- ... and column j. -/
theorem rhs_col (i : S1x8192.Idx) (q : dot_S1x128_S128x8192_S1x8192_1_0_0_1_n_n.contr.Idx) :
    (dot_S1x128_S128x8192_S1x8192_1_0_0_1_n_n.rhsIdx i q 1).val = (i 1).val := by
  unfold DotDims.rhsIdx
  rw [dif_neg (show ¬(1 : Fin S128x8192.rank) ∈ dot_S1x128_S128x8192_S1x8192_1_0_0_1_n_n.rhsBatch by decide), dif_pos (show (1 : Fin S128x8192.rank) ∈ dot_S1x128_S128x8192_S1x8192_1_0_0_1_n_n.rhsNonContracting by decide)]
  rfl

/-- A row [1, 128] times a block [128, 8192], accumulated into zeros, read at lane j: the sum over the 128 rows of the
    row's entry times the block's entry in column j. -/
theorem matmul_row (lhs : FVec Ideal S1x128 .bf16) (rhs : FVec Ideal S128x8192 .bf16) (j : Fin 8192) :
    (matmul dot_S1x128_S128x8192_S1x8192_1_0_0_1_n_n none lhs rhs (constant (F := Ideal) S1x8192 .f32 0x00000000#32) : FVec Ideal S1x8192 .f32) (ix2 (0 : Fin 1) j)
      = ∑ r : Fin 128, lhs (ix2 (0 : Fin 1) r) * rhs (ix2 r j) := by
  simp only [matmul]
  rw [Ideal.matmul_constant_zero_apply, ← Equiv.sum_comp (ValueIdx.contrEquiv1 dot_S1x128_S128x8192_S1x8192_1_0_0_1_n_n 128 rfl rfl).symm]
  refine Finset.sum_congr rfl fun k _ => ?_
  have hk := ValueIdx.contrEquiv1_symm_val dot_S1x128_S128x8192_S1x8192_1_0_0_1_n_n 128 rfl rfl k
  have el : dot_S1x128_S128x8192_S1x8192_1_0_0_1_n_n.lhsIdx (ix2 (0 : Fin 1) j) ((ValueIdx.contrEquiv1 dot_S1x128_S128x8192_S1x8192_1_0_0_1_n_n 128 rfl rfl).symm k) = ix2 (0 : Fin 1) k := funext fun a => Fin.ext (by
    match a with
    | ⟨0, _⟩ => exact lhs_row _ _
    | ⟨1, _⟩ => exact (lhs_col _ _).trans hk)
  have er : dot_S1x128_S128x8192_S1x8192_1_0_0_1_n_n.rhsIdx (ix2 (0 : Fin 1) j) ((ValueIdx.contrEquiv1 dot_S1x128_S128x8192_S1x8192_1_0_0_1_n_n 128 rfl rfl).symm k) = ix2 k j := funext fun a => Fin.ext (by
    match a with
    | ⟨0, _⟩ => exact (rhs_row _ _).trans hk
    | ⟨1, _⟩ => exact rhs_col _ _)
  rw [el, er]

/-- The word the trip's rows start from is 128 times the trip's number, ... -/
theorem base_eq : ∀ k : Fin k1_t1_loop.trips, k1_mult1 k = BitVec.ofNat 32 (128 * k.val) := by decide +kernel

/-- ... so row r of trip k carries the word of table position 128 k + r. -/
theorem word_at (k : Fin k1_t1_loop.trips) (r : ℕ) : k1_mult1 k + BitVec.ofNat 32 r = BitVec.ofNat 32 (128 * k.val + r) := by
  rw [base_eq k, BitVec.ofNat_add]

/-- One trip's update read at lane j: what the scratch held there plus, over the chunk's 128 entries, the entry times
    the indicator that its table position is lane j's relation word. -/
theorem pay_step_apply (v : Vec Ideal S1x8192 .i32) (k : Fin k1_t1_loop.trips) (chunk : Vec Ideal S1x128 .bf16)
    (acc : Vec Ideal S1x8192 .f32) (j : Fin 8192) :
    k1_pay2 (F := Ideal) v k chunk acc (ix2 (0 : Fin 1) j)
      = acc (ix2 (0 : Fin 1) j) + ∑ r : Fin 128, chunk (ix2 (0 : Fin 1) r)
          * (if BitVec.ofNat 32 (128 * k.val + r.val) = v (ix2 (0 : Fin 1) j) then 1 else 0) := by
  unfold k1_pay2
  dsimp only
  simp only [shapeCast_self]
  show acc (ix2 (0 : Fin 1) j) + _ = _
  refine congrArg (acc (ix2 (0 : Fin 1) j) + ·) ?_
  refine (matmul_row _ _ j).trans ?_
  refine Finset.sum_congr rfl fun r _ => ?_
  refine congrArg (chunk (ix2 (0 : Fin 1) r) * ·) ?_
  refine (hot_apply _ _ r j).trans ?_
  exact congrArg (fun b => if b = v (ix2 (0 : Fin 1) j) then (1 : EReal) else 0) (word_at k r.val)

/-! ## The run: the scratch row trip by trip, and the block the body leaves -/

theorem hz : (![0, 0] : Fin 2 → Nat) = fun _ => 0 := funext fun a => by fin_cases a <;> rfl

/-- The loop makes 8 trips. -/
theorem trips_eq : k1_t1_loop.trips = 8 := by decide

/-- Entry r of the table chunk trip k loads is the table row's entry 128 k + r. -/
theorem chunk_apply (x : Vec Ideal S1x1024 .bf16) (k : Fin k1_t1_loop.trips) (r : Fin 128) (h : 128 * k.val + r.val < 1024) :
    View.ld x (Rect.unit (s := S1x1024) (k1_off1 k) S1x128.size (k1_off1_inb k)) (ix2 (0 : Fin 1) r)
      = x (ix2 (0 : Fin 1) ⟨128 * k.val + r.val, h⟩) := by
  show x _ = x _
  refine congrArg x (funext fun a => Fin.ext ?_)
  match a with
  | ⟨0, _⟩ =>
    show k1_off1 k 0 + 1 * 0 = 0
    rw [k1_off1_eq k]; rfl
  | ⟨1, _⟩ =>
    show k1_off1 k 1 + 1 * r.val = 128 * k.val + r.val
    rw [k1_off1_eq k]
    show 128 * k.val + 1 * r.val = 128 * k.val + r.val
    omega

section Run

variable (c : Dev nD) (i : grid1.Coords) (arg1 : Memref sig .tc .vmem S1x1024 .bf16) (harg1 : arg1.IsWhole)
  (arg2 : Memref sig .tc .vmem S1x8192 .i32) (harg2 : arg2.IsWhole) (arg3 : Memref sig .tc .vmem S1x8192 .f32) (harg3 : arg3.IsWhole)
  (arg4 : Memref sig .tc .vmem S1x8192 .f32) (harg4 : arg4.IsWhole)

/-- One store through the whole scratch row covers every lane. -/
theorem cover_one (w : S1x8192.Idx → Elt Ideal .f32) (y : S1x8192.Idx) :
    ∃ p ∈ [(⟨Rect.unit (s := S1x8192) ![0, 0] S1x8192.size inb_S1x8192_S1x8192_0_0, w⟩ : View.Piece (Elt Ideal) S1x8192 .f32)], y ∈ p.1.set :=
  ⟨_, List.mem_singleton_self _, View.mem_set_unit_zero hz inb_S1x8192_S1x8192_0_0 y⟩

/-- One trip writes the whole scratch row: the update, by the trip's table chunk, of the row it finds there. -/
theorem trip_pieces (𝒱 : Variants) (bd : Option 𝒱.V) (v : Vec Ideal S1x8192 .i32) (X : BufTy.Contents (Elt Ideal) arg1.view.ty)
    (k : Fin k1_t1_loop.trips) (f : BufTy.Contents (Elt Ideal) arg4.view.ty) :
    tripL_k1_t1 (F := Ideal) 𝒱 c bd i arg1 harg1 arg2 harg2 arg3 harg3 arg4 harg4 v X k f
      = [⟨Rect.unit (s := S1x8192) ![0, 0] S1x8192.size inb_S1x8192_S1x8192_0_0,
          k1_pay2 (F := Ideal) v k (View.ld (arg1.view.read (Elt Ideal) X) (Rect.unit (s := S1x1024) (k1_off1 k) S1x128.size (k1_off1_inb k)))
            (arg4.view.read (Elt Ideal) f)⟩] := by
  unfold tripL_k1_t1 trip_k1_t1
  dsimp only
  simp only [View.readAt_eq_ld, View.ld_unit_zero (S := S1x8192) hz]

/-- What the scratch holds when the loop is entered: the zero row, stored over whatever was there. -/
def start : BufTy.Contents (Elt Ideal) arg4.view.ty :=
  arg4.view.writes (Elt Ideal) arg4.view.junk [(⟨Rect.unit (s := S1x8192) ![0, 0] S1x8192.size inb_S1x8192_S1x8192_0_0, k1_pay1 (F := Ideal)⟩ : View.Piece (Elt Ideal) S1x8192 .f32)]

/-- The scratch row after the first n trips, for relation words v and table row x. -/
def rowAfter (v : Vec Ideal S1x8192 .i32) (x : Vec Ideal S1x1024 .bf16) (n : ℕ) : Vec Ideal S1x8192 .f32 :=
  arg4.view.read (Elt Ideal) (arg4.view.writes (Elt Ideal) (start arg4)
    (pb_k1_t1 (F := Ideal) Variants.none c none i arg1 harg1 arg2 harg2 arg3 harg3 arg4 harg4 v (harg1.unread x) (start arg4) n))

/-- Before the first trip it is the zero row. -/
theorem rowAfter_zero (v : Vec Ideal S1x8192 .i32) (x : Vec Ideal S1x1024 .bf16) :
    rowAfter c i arg1 harg1 arg2 harg2 arg3 harg3 arg4 harg4 v x 0 = k1_pay1 (F := Ideal) := by
  unfold rowAfter start
  rw [pb_k1_t1.eq_1, View.writes_nil, View.read_writes_eq_canon _ _ _ (cover_one _), View.canon_unit_zero hz]

/-- Trip n updates it by the trip's table chunk. -/
theorem rowAfter_succ (v : Vec Ideal S1x8192 .i32) (x : Vec Ideal S1x1024 .bf16) (n : ℕ) (hn : n < k1_t1_loop.trips) :
    rowAfter c i arg1 harg1 arg2 harg2 arg3 harg3 arg4 harg4 v x (n + 1)
      = k1_pay2 (F := Ideal) v ⟨n, hn⟩ (View.ld x (Rect.unit (s := S1x1024) (k1_off1 ⟨n, hn⟩) S1x128.size (k1_off1_inb ⟨n, hn⟩)))
          (rowAfter c i arg1 harg1 arg2 harg2 arg3 harg3 arg4 harg4 v x n) := by
  unfold rowAfter
  rw [pb_k1_t1_succ (F := Ideal) Variants.none c none i arg1 harg1 arg2 harg2 arg3 harg3 arg4 harg4 v (harg1.unread x) (start arg4) ⟨n, hn⟩,
    View.writes_append, trip_pieces, View.read_writes_eq_canon _ _ _ (cover_one _), View.canon_unit_zero hz, harg1.read_unread]

/-- THE INVARIANT: after n trips lane j holds the lookup's summands over the first n chunks of the table. -/
theorem rowAfter_apply (v : Vec Ideal S1x8192 .i32) (x : Vec Ideal S1x1024 .bf16) (n : ℕ) (hn : n ≤ 8) (j : Fin 8192) :
    rowAfter c i arg1 harg1 arg2 harg2 arg3 harg3 arg4 harg4 v x n (ix2 (0 : Fin 1) j)
      = ∑ m ∈ Finset.range (128 * n), pick (fun r => x (ix2 (0 : Fin 1) r)) (v (ix2 (0 : Fin 1) j)) m := by
  induction n with
  | zero =>
    rw [rowAfter_zero, Nat.mul_zero, Finset.range_zero, Finset.sum_empty]
    unfold k1_pay1
    rw [shapeCast_self]
    exact Ideal.ofBits_zero_f32
  | succ n ih =>
    have hn' : n < k1_t1_loop.trips := by rw [trips_eq]; omega
    rw [rowAfter_succ c i arg1 harg1 arg2 harg2 arg3 harg3 arg4 harg4 v x n hn', pay_step_apply, ih (by omega), sum_pick_succ]
    refine congrArg (_ + ·) (Finset.sum_congr rfl fun r _ => ?_)
    have hr := r.isLt
    have hlt : 128 * n + r.val < 1024 := by omega
    rw [chunk_apply x ⟨n, hn'⟩ r hlt]
    unfold pick
    rw [dif_pos hlt]

/-- The block the body leaves is the scratch row after the last trip, capped at one. -/
theorem out_eq (x0 : Vec Ideal S1x1024 .bf16) (x1 : Vec Ideal S1x8192 .i32) :
    out1_A_2 (F := Ideal) c i arg1 harg1 arg2 harg2 arg3 harg3 arg4 harg4 x0 x1 = k1_pay3 (F := Ideal) (rowAfter c i arg1 harg1 arg2 harg2 arg3 harg3 arg4 harg4 x1 x0 k1_t1_loop.trips) := by
  unfold out1_A_2
  rw [View.read_writes_eq_canon _ _ _ (cover1_A_2 c i arg1 harg1 arg2 harg2 arg3 harg3 arg4 harg4 x0 x1)]
  unfold kernelRun1_A
  dsimp only
  sl_unfold_words
  rw [View.canon_unit_zero hz]
  simp only [View.readAt_eq_ld, harg2.read_unread, View.ld_unit_zero (S := S1x8192) hz, View.writes_append]
  rfl

end Run

/-- Lane j of the block the body leaves is the table row read at lane j's relation word, capped at one: the eight
    chunk products against the one-hot columns sum to the one entry the word names, or to nothing. -/
theorem out1_apply (c : Dev nD) (i : grid1.Coords) (arg1 : Memref sig .tc .vmem S1x1024 .bf16) (harg1 : arg1.IsWhole)
    (arg2 : Memref sig .tc .vmem S1x8192 .i32) (harg2 : arg2.IsWhole) (arg3 : Memref sig .tc .vmem S1x8192 .f32) (harg3 : arg3.IsWhole)
    (arg4 : Memref sig .tc .vmem S1x8192 .f32) (harg4 : arg4.IsWhole)
    (x0 : Vec Ideal S1x1024 .bf16) (x1 : Vec Ideal S1x8192 .i32) (j : Fin 8192) :
    out1_A_2 (F := Ideal) c i arg1 harg1 arg2 harg2 arg3 harg3 arg4 harg4 x0 x1 (ix2 (0 : Fin 1) j)
      = Cert.Spec.look 1024 (fun r => x0 (ix2 (0 : Fin 1) r)) (x1 (ix2 (0 : Fin 1) j)) := by
  rw [out_eq]
  show min (rowAfter c i arg1 harg1 arg2 harg2 arg3 harg3 arg4 harg4 x1 x0 k1_t1_loop.trips (ix2 (0 : Fin 1) j)) (Ideal.ofBits .f32 0x3F800000#32) = _
  rw [rowAfter_apply c i arg1 harg1 arg2 harg2 arg3 harg3 arg4 harg4 x1 x0 _ (le_of_eq trips_eq) j, trips_eq, show 128 * 8 = 1024 from rfl, sum_pick]
  rfl

end Cert.KernelIdeal.KBody1

end
-- ==== Proof.KCover1.lean ====
/- The second region's result row, lane by lane: the 245 grid points' blocks of 8192 lanes cover the row, and each
   block is the lookup of its lanes' words in the table row. -/
import proofs.«413616_j64639257805012_2_alg».proof.Proof.KDefs
import proofs.«413616_j64639257805012_2_alg».proof.Proof.KBody1
import Idealize.ShloMosaic.Lib.Pipeline.Value
import Idealize.ShloMosaic.Lib.ValueIdx

set_option maxRecDepth 16384

noncomputable section

open scoped BigOperators

namespace Cert.KernelIdeal.KCover1

open Cert.KernelIdeal Cert.KernelIdeal.Gen Cert.KernelIdeal.KDefs
open Idealize.ShloMosaic Idealize.ShloMosaic.TcCoe Idealize.ShloMosaic.ValueIdx Idealize.SL.Sem

variable (m : (ℓ : Loc nD τ sig) → Buf (Elt Ideal) ℓ) (ρ : Dev nD → PrngReg)

/-- The three index maps over the grid: the table window stays at block (0, 0); the word window and the result
    window are at block (0, t) at point t. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- The table window's block at every point, read off any table row, is that row. -/
theorem tbl_read (T : Vec Ideal S1x1024 .bf16) (t : Fin cfg1.N) (x : S1x1024.Idx) :
    ((cfg1.win 0).blk t).view.read (Elt Ideal) T x = T x := by
  obtain ⟨e0, e1, -⟩ := idx_facts t
  rw [View.read_apply]
  show T _ = T _
  refine congrArg T (funext fun a => Fin.ext ?_)
  match a with
  | ⟨0, _⟩ => show win1_0.index t (0 : Fin 2) * 1 + 1 * (x 0).val = (x 0).val; rw [e0]; omega
  | ⟨1, _⟩ => show win1_0.index t (1 : Fin 2) * 1024 + 1 * (x 1).val = (x 1).val; rw [e1]; omega

/-- The word window's block at point t, read off any word row, is lanes 8192 t … 8192 t + 8191 of that row. -/
theorem words_read (W : Vec Ideal S1x2007040 .i32) (t : Fin cfg1.N) (x : S1x8192.Idx) (k : S1x2007040.Idx)
    (hk0 : (k 0).val = (x 0).val) (hk1 : (k 1).val = 8192 * t.val + (x 1).val) :
    ((cfg1.win 1).blk t).view.read (Elt Ideal) W x = W k := by
  obtain ⟨-, -, e0, e1, -⟩ := idx_facts t
  rw [View.read_apply]
  show W _ = W _
  refine congrArg W (funext fun a => Fin.ext ?_)
  match a with
  | ⟨0, _⟩ => show win1_1.index t (0 : Fin 2) * 1 + 1 * (x 0).val = (k 0).val; rw [e0, hk0]; omega
  | ⟨1, _⟩ => show win1_1.index t (1 : Fin 2) * 8192 + 1 * (x 1).val = (k 1).val; rw [e1, hk1]; omega

/-- The result window's block at point t, read off any result row, is lanes 8192 t … 8192 t + 8191 of that row. -/
theorem res_read (R : Vec Ideal S1x2007040 .f32) (t : Fin cfg1.N) (x : S1x8192.Idx) (k : S1x2007040.Idx)
    (hk0 : (k 0).val = (x 0).val) (hk1 : (k 1).val = 8192 * t.val + (x 1).val) :
    ((cfg1.win 2).blk t).view.read (Elt Ideal) R x = R k := by
  obtain ⟨-, -, -, -, e0, e1⟩ := idx_facts t
  rw [View.read_apply]
  show R _ = R _
  refine congrArg R (funext fun a => Fin.ext ?_)
  match a with
  | ⟨0, _⟩ => show win1_2.index t (0 : Fin 2) * 1 + 1 * (x 0).val = (k 0).val; rw [e0, hk0]; omega
  | ⟨1, _⟩ => show win1_2.index t (1 : Fin 2) * 8192 + 1 * (x 1).val = (k 1).val; rw [e1, hk1]; omega

/-- So the table block the body sees at every point is the table row the region finds. -/
theorem tbl_blk_apply (c : Dev nD) (t : Fin cfg1.N) (x : S1x1024.Idx) :
    (iblk1 (V8 m ρ) c 0 t : Vec Ideal S1x1024 .bf16) x = tblSr m ρ c x := by
  unfold iblk1
  exact tbl_read (tblSr m ρ c) t x

/-- And lane x of the word block the body sees at point t is lane 8192 t + x of the word row the region finds. -/
theorem words_blk_apply (c : Dev nD) (t : Fin cfg1.N) (x : S1x8192.Idx) (k : S1x2007040.Idx)
    (hk0 : (k 0).val = (x 0).val) (hk1 : (k 1).val = 8192 * t.val + (x 1).val) :
    (iblk1 (V8 m ρ) c 1 t : Vec Ideal S1x8192 .i32) x = wordsSr m ρ c k := by
  unfold iblk1
  exact words_read (wordsSr m ρ c) t x k hk0 hk1

/-- The whole result row as ONE function of the table row and the word row the region finds: a lane is the table row
    read at that lane's word, capped at one. -/
def Gres (c : Dev nD) : Vec Ideal S1x2007040 .f32 := fun y =>
  Cert.Spec.look 1024 (fun r => tblSr m ρ c (ix2 (0 : Fin 1) r)) (wordsSr m ρ c y)

/-- What point t writes back is block t of that row: the body's lane q is the lookup of the word block's lane q in
    the table block, the table block is the table row, and lane q of the word block and of the result block is lane
    8192 t + q of its row. -/
theorem flushed_eq (c : Dev nD) (t : Fin cfg1.N) :
    (dat1 (V8 m ρ) c).flushed 2 t = ((cfg1.win 2).blk t).view.read (Elt Ideal) (Gres m ρ c) := by
  show (cfg1.win 2).cut (grid1.coords t) ((dat1 (V8 m ρ) c).after 2 t) = _
  rw [after1_2]
  refine funext fun (y : S1x8192.Idx) => ?_
  obtain ⟨q, rfl⟩ : ∃ q : Fin 8192, y = ix2 (0 : Fin 1) q :=
    ⟨y 1, funext fun a => match a with
      | ⟨0, _⟩ => Fin.ext (by have h : (y 0).val < 1 := (y 0).isLt; show (y 0).val = 0; omega)
      | ⟨1, _⟩ => rfl⟩
  have hq : 8192 * t.val + q.val < 2007040 := by
    have ht : t.val < 245 := Nat.lt_of_lt_of_eq t.isLt N_1
    have := q.isLt; omega
  refine Eq.trans ?_ (res_read (Gres m ρ c) t (ix2 (0 : Fin 1) q) (ix2 (0 : Fin 1) ⟨8192 * t.val + q.val, hq⟩) rfl rfl).symm
  show outsAt1 (V8 m ρ) c t (ix2 (0 : Fin 1) q) = _
  unfold outsAt1
  refine (KBody1.out1_apply c (grid1.coords t) (ms1_0 t) (hs1_0 t) (ms1_1 t) (hs1_1 t) (ms1_2 t) (hs1_2 t) scM1_0
    (Memref.isWhole_whole _) (iblk1 (V8 m ρ) c 0 t) (iblk1 (V8 m ρ) c 1 t) q).trans ?_
  unfold Gres
  exact congrArg₂ (Cert.Spec.look 1024) (funext fun r => tbl_blk_apply m ρ c t (ix2 (0 : Fin 1) r))
    (words_blk_apply m ρ c t (ix2 (0 : Fin 1) q) (ix2 (0 : Fin 1) ⟨8192 * t.val + q.val, hq⟩) rfl rfl)

/-- A lane of the result row is in point t's block iff each coordinate is in the block's range on its axis. -/
theorem mem_blk (t : Fin cfg1.N) (i : S1x2007040.Idx) :
    i ∈ ((cfg1.win 2).blk t).view.set ↔ ∀ a : Fin 2, win1_2.index t a * S1x8192.size a ≤ (i a).val ∧ (i a).val < win1_2.index t a * S1x8192.size a + S1x8192.size a := by
  show i ∈ ((View.whole main_v9).slice (win1_2.rect t)).set ↔ _
  rw [View.set_slice_whole, Rect.mem_set_unit]
  exact Iff.rfl

/-- The blocks cover the row: lane j is in the block of point j / 8192, and every point writes its block back. -/
theorem cover (i : S1x2007040.Idx) :
    ∃ t : Fin cfg1.N, (cfg1.win 2).flush t = true ∧ i ∈ ((cfg1.win 2).blk t).view.set := by
  have hi0 : (i 0).val < 1 := (i 0).isLt
  have hi1 : (i 1).val < 2007040 := (i 1).isLt
  obtain ⟨t, ht⟩ : ∃ t : Fin cfg1.N, t.val = (i 1).val / 8192 :=
    ⟨⟨(i 1).val / 8192, Nat.lt_of_lt_of_eq (show (i 1).val / 8192 < 245 by omega) N_1.symm⟩, rfl⟩
  obtain ⟨-, -, -, -, e0, e1⟩ := idx_facts t
  refine ⟨t, flush1_2 t, ?_⟩
  rw [mem_blk]
  intro a
  match a with
  | ⟨0, _⟩ =>
    show win1_2.index t (0 : Fin 2) * 1 ≤ (i 0).val ∧ (i 0).val < win1_2.index t (0 : Fin 2) * 1 + 1
    rw [e0]; omega
  | ⟨1, _⟩ =>
    show win1_2.index t (1 : Fin 2) * 8192 ≤ (i 1).val ∧ (i 1).val < win1_2.index t (1 : Fin 2) * 8192 + 8192
    rw [e1, ht]; omega

/-- So the region leaves the whole-row function in its result array. -/
theorem final (c : Dev nD) : (dat1 (V8 m ρ) c).arrAt 2 cfg1.N = Gres m ρ c :=
  (dat1 (V8 m ρ) c).arrAt_eq_of_cover 2 (Gres m ρ c) (fun t _ => flushed_eq m ρ c t) cover

theorem resSr_apply (c : Dev nD) (j : Fin 2007040) :
    resSr m ρ c (ix2 (0 : Fin 1) j)
      = Cert.Spec.look 1024 (fun r => tblSr m ρ c (ix2 (0 : Fin 1) r)) (wordsSr m ρ c (ix2 (0 : Fin 1) j)) := by
  have h : resSr m ρ c = Gres m ρ c := (W9_arr m ρ c 2).trans (final m ρ c)
  rw [h]
  rfl

end Cert.KernelIdeal.KCover1

end
-- ==== Proof.KBody2.lean ====
/- The first lookup body: what one grid point leaves in its output block, read at an index. -/
import proofs.«413616_j64639257805012_2_alg».proof.Proof.Gen.KernelIdeal.Frame
import proofs.«413616_j64639257805012_2_alg».proof.Proof.Spec
import proofs.«413616_j64639257805012_2_alg».proof.Proof.LibBlockOps
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KBody2

open Cert.KernelIdeal Cert.KernelIdeal.Gen
open Idealize.ShloMosaic Idealize.ShloMosaic.TcCoe Idealize.ShloMosaic.ValueIdx Idealize.SL.Sem

/-! ## The mathematics: a product against one-hot columns picks one table entry -/

/-- The lookup's summand at table position `m`: the entry there when `m` is the word `w`, nothing otherwise, and
    nothing past the table's end. -/
def pick (tbl : Fin 1280 → EReal) (w : BitVec 32) (m : ℕ) : EReal :=
  if h : m < 1280 then tbl ⟨m, h⟩ * (if BitVec.ofNat 32 m = w then 1 else 0) else 0

/-- A table position, as a 32-bit word, is the word `w` exactly when it is `w`'s value: positions are far below 2^32. -/
theorem word_eq_iff (w : BitVec 32) (m : ℕ) (hm : m < 1280) : BitVec.ofNat 32 m = w ↔ m = w.toNat := by
  rw [← BitVec.toNat_inj, BitVec.toNat_ofNat, Nat.mod_eq_of_lt (by omega)]

/-- Over the whole table the summands add up to the one entry the word names, or to nothing when the word names none:
    every other summand is an entry times zero, which is zero for every extended real. -/
theorem sum_pick (tbl : Fin 1280 → EReal) (w : BitVec 32) :
    ∑ m ∈ Finset.range 1280, pick tbl w m = if h : w.toNat < 1280 then tbl ⟨w.toNat, h⟩ else 0 := by
  by_cases h : w.toNat < 1280
  · rw [dif_pos h, Finset.sum_eq_single_of_mem w.toNat (Finset.mem_range.mpr h)]
    · unfold pick
      rw [dif_pos h, if_pos ((word_eq_iff w _ h).mpr rfl), mul_one]
    · intro m hm hne
      have hm' := Finset.mem_range.mp hm
      unfold pick
      rw [dif_pos hm', if_neg (fun e => hne ((word_eq_iff w m hm').mp e)), mul_zero]
  · rw [dif_neg h]
    refine Finset.sum_eq_zero fun m hm => ?_
    have hm' := Finset.mem_range.mp hm
    unfold pick
    rw [dif_pos hm', if_neg (fun e => h (by rw [← (word_eq_iff w m hm').mp e]; exact hm')), mul_zero]

/-- The summands of the first `n + 1` chunks of 128 positions are those of the first `n` and those of chunk `n`. -/
theorem sum_pick_succ (tbl : Fin 1280 → EReal) (w : BitVec 32) (n : ℕ) :
    ∑ m ∈ Finset.range (128 * (n + 1)), pick tbl w m
      = ∑ m ∈ Finset.range (128 * n), pick tbl w m + ∑ r : Fin 128, pick tbl w (128 * n + r.val) := by
  rw [show 128 * (n + 1) = 128 * n + 128 by ring, Finset.sum_range_add, Finset.sum_range (fun x => pick tbl w (128 * n + x))]

/-! ## The trip's arithmetic read at a lane -/

/-- A 32-bit comparison for equality, widened and converted to a float, is one where the words agree and zero elsewhere. -/
theorem hot_entry (a b : BitVec 32) :
    (FloatOps.sitofp (F := Ideal) .f32 ((IntOp.cmpi .eq a b).setWidth 32) : EReal) = if a = b then 1 else 0 := by
  by_cases h : a = b
  · subst h
    rw [if_pos rfl, show IntOp.cmpi .eq a a = 1#1 by simp [IntOp.cmpi]]
    show ((((1#1 : BitVec 1).setWidth 32).toInt : ℝ) : EReal) = 1
    rw [show ((1#1 : BitVec 1).setWidth 32).toInt = 1 by decide]
    simp
  · rw [if_neg h, show IntOp.cmpi .eq a b = 0#1 by
      show BitVec.ofBool (a == b) = 0#1
      rw [beq_false_of_ne h]; rfl]
    show ((((0#1 : BitVec 1).setWidth 32).toInt : ℝ) : EReal) = 0
    rw [show ((0#1 : BitVec 1).setWidth 32).toInt = 0 by decide]
    simp

/-- Entry (r, j) of the one-hot block: row `r` carries the word `base + r`, column `j` the relation word of lane `j`,
    and the entry is one where the two agree. -/
theorem hot_apply (base : BitVec 32) (v : IVec S1x8192 32) (r : Fin 128) (j : Fin 8192) :
    (truncf .bf16 (sitofp (F := Ideal) .f32 (extui 32 (cmpi .eq (addi (broadcast S128x8192 base) (iota .tc S128x8192 32 [0] iota_S128x8192_d0_w32))
        (broadcastTo S128x8192 v broadcasts_S1x8192_S128x8192)) natLt_1_32)) bitsLt_bf16_f32 : FVec Ideal S128x8192 .bf16) (ix2 r j)
      = if base + BitVec.ofNat 32 r.val = v (ix2 (0 : Fin 1) j) then 1 else 0 := by
  show FloatOps.sitofp (F := Ideal) .f32 ((IntOp.cmpi .eq (base + iota .tc S128x8192 32 [0] iota_S128x8192_d0_w32 (ix2 r j))
      (broadcastTo S128x8192 v broadcasts_S1x8192_S128x8192 (ix2 r j))).setWidth 32) = _
  rw [iota_single_apply, Cert.LibBlockOps.row_apply]
  exact hot_entry _ _

/-- The product's left operand index at output (0, j) and contraction position q: row 0 ... -/
theorem lhs_row (i : S1x8192.Idx) (q : dot_S1x128_S128x8192_S1x8192_1_0_0_1_n_n.contr.Idx) :
    (dot_S1x128_S128x8192_S1x8192_1_0_0_1_n_n.lhsIdx i q 0).val = (i 0).val := by
  unfold DotDims.lhsIdx
  rw [dif_neg (show ¬(0 : Fin S1x128.rank) ∈ dot_S1x128_S128x8192_S1x8192_1_0_0_1_n_n.lhsBatch by decide), dif_pos (show (0 : Fin S1x128.rank) ∈ dot_S1x128_S128x8192_S1x8192_1_0_0_1_n_n.lhsNonContracting by decide)]
  rfl
/-- ... and column q; -/
theorem lhs_col (i : S1x8192.Idx) (q : dot_S1x128_S128x8192_S1x8192_1_0_0_1_n_n.contr.Idx) :
    (dot_S1x128_S128x8192_S1x8192_1_0_0_1_n_n.lhsIdx i q 1).val = (q ⟨0, by decide⟩).val :=
  dot_S1x128_S128x8192_S1x8192_1_0_0_1_n_n.lhsIdx_val_of_single rfl i q
/-- the right operand's: row q ... -/
theorem rhs_row (i : S1x8192.Idx) (q : dot_S1x128_S128x8192_S1x8192_1_0_0_1_n_n.contr.Idx) :
    (dot_S1x128_S128x8192_S1x8192_1_0_0_1_n_n.rhsIdx i q 0).val = (q ⟨0, by decide⟩).val :=
  dot_S1x128_S128x8192_S1x8192_1_0_0_1_n_n.rhsIdx_val_of_single rfl i q
/-- ... and column j. -/
theorem rhs_col (i : S1x8192.Idx) (q : dot_S1x128_S128x8192_S1x8192_1_0_0_1_n_n.contr.Idx) :
    (dot_S1x128_S128x8192_S1x8192_1_0_0_1_n_n.rhsIdx i q 1).val = (i 1).val := by
  unfold DotDims.rhsIdx
  rw [dif_neg (show ¬(1 : Fin S128x8192.rank) ∈ dot_S1x128_S128x8192_S1x8192_1_0_0_1_n_n.rhsBatch by decide), dif_pos (show (1 : Fin S128x8192.rank) ∈ dot_S1x128_S128x8192_S1x8192_1_0_0_1_n_n.rhsNonContracting by decide)]
  rfl

/-- A row [1, 128] times a block [128, 8192], accumulated into zeros, read at lane j: the sum over the 128 rows of the
    row's entry times the block's entry in column j. -/
theorem matmul_row (lhs : FVec Ideal S1x128 .bf16) (rhs : FVec Ideal S128x8192 .bf16) (j : Fin 8192) :
    (matmul dot_S1x128_S128x8192_S1x8192_1_0_0_1_n_n none lhs rhs (constant (F := Ideal) S1x8192 .f32 0x00000000#32) : FVec Ideal S1x8192 .f32) (ix2 (0 : Fin 1) j)
      = ∑ r : Fin 128, lhs (ix2 (0 : Fin 1) r) * rhs (ix2 r j) := by
  simp only [matmul]
  rw [Ideal.matmul_constant_zero_apply, ← Equiv.sum_comp (ValueIdx.contrEquiv1 dot_S1x128_S128x8192_S1x8192_1_0_0_1_n_n 128 rfl rfl).symm]
  refine Finset.sum_congr rfl fun k _ => ?_
  have hk := ValueIdx.contrEquiv1_symm_val dot_S1x128_S128x8192_S1x8192_1_0_0_1_n_n 128 rfl rfl k
  have el : dot_S1x128_S128x8192_S1x8192_1_0_0_1_n_n.lhsIdx (ix2 (0 : Fin 1) j) ((ValueIdx.contrEquiv1 dot_S1x128_S128x8192_S1x8192_1_0_0_1_n_n 128 rfl rfl).symm k) = ix2 (0 : Fin 1) k := funext fun a => Fin.ext (by
    match a with
    | ⟨0, _⟩ => exact lhs_row _ _
    | ⟨1, _⟩ => exact (lhs_col _ _).trans hk)
  have er : dot_S1x128_S128x8192_S1x8192_1_0_0_1_n_n.rhsIdx (ix2 (0 : Fin 1) j) ((ValueIdx.contrEquiv1 dot_S1x128_S128x8192_S1x8192_1_0_0_1_n_n 128 rfl rfl).symm k) = ix2 k j := funext fun a => Fin.ext (by
    match a with
    | ⟨0, _⟩ => exact (rhs_row _ _).trans hk
    | ⟨1, _⟩ => exact rhs_col _ _)
  rw [el, er]

/-- The word the trip's rows start from is 128 times the trip's number, ... -/
theorem base_eq : ∀ k : Fin k2_t1_loop.trips, k2_mult1 k = BitVec.ofNat 32 (128 * k.val) := by decide +kernel

/-- ... so row r of trip k carries the word of table position 128 k + r. -/
theorem word_at (k : Fin k2_t1_loop.trips) (r : ℕ) : k2_mult1 k + BitVec.ofNat 32 r = BitVec.ofNat 32 (128 * k.val + r) := by
  rw [base_eq k, BitVec.ofNat_add]

/-- One trip's update read at lane j: what the scratch held there plus, over the chunk's 128 entries, the entry times
    the indicator that its table position is lane j's relation word. -/
theorem pay_step_apply (v : Vec Ideal S1x8192 .i32) (k : Fin k2_t1_loop.trips) (chunk : Vec Ideal S1x128 .bf16)
    (acc : Vec Ideal S1x8192 .f32) (j : Fin 8192) :
    k2_pay2 (F := Ideal) v k chunk acc (ix2 (0 : Fin 1) j)
      = acc (ix2 (0 : Fin 1) j) + ∑ r : Fin 128, chunk (ix2 (0 : Fin 1) r)
          * (if BitVec.ofNat 32 (128 * k.val + r.val) = v (ix2 (0 : Fin 1) j) then 1 else 0) := by
  unfold k2_pay2
  dsimp only
  simp only [shapeCast_self]
  show acc (ix2 (0 : Fin 1) j) + _ = _
  refine congrArg (acc (ix2 (0 : Fin 1) j) + ·) ?_
  refine (matmul_row _ _ j).trans ?_
  refine Finset.sum_congr rfl fun r _ => ?_
  refine congrArg (chunk (ix2 (0 : Fin 1) r) * ·) ?_
  refine (hot_apply _ _ r j).trans ?_
  exact congrArg (fun b => if b = v (ix2 (0 : Fin 1) j) then (1 : EReal) else 0) (word_at k r.val)

/-! ## The run: the scratch row trip by trip, and the block the body leaves -/

theorem hz : (![0, 0] : Fin 2 → Nat) = fun _ => 0 := funext fun a => by fin_cases a <;> rfl

/-- The loop makes 10 trips. -/
theorem trips_eq : k2_t1_loop.trips = 10 := by decide

/-- Entry r of the table chunk trip k loads is the table row's entry 128 k + r. -/
theorem chunk_apply (x : Vec Ideal S1x1280 .bf16) (k : Fin k2_t1_loop.trips) (r : Fin 128) (h : 128 * k.val + r.val < 1280) :
    View.ld x (Rect.unit (s := S1x1280) (k2_off1 k) S1x128.size (k2_off1_inb k)) (ix2 (0 : Fin 1) r)
      = x (ix2 (0 : Fin 1) ⟨128 * k.val + r.val, h⟩) := by
  show x _ = x _
  refine congrArg x (funext fun a => Fin.ext ?_)
  match a with
  | ⟨0, _⟩ =>
    show k2_off1 k 0 + 1 * 0 = 0
    rw [k2_off1_eq k]; rfl
  | ⟨1, _⟩ =>
    show k2_off1 k 1 + 1 * r.val = 128 * k.val + r.val
    rw [k2_off1_eq k]
    show 128 * k.val + 1 * r.val = 128 * k.val + r.val
    omega

section Run

variable (c : Dev nD) (i : grid2.Coords) (arg1 : Memref sig .tc .vmem S1x1280 .bf16) (harg1 : arg1.IsWhole)
  (arg2 : Memref sig .tc .vmem S1x8192 .i32) (harg2 : arg2.IsWhole) (arg3 : Memref sig .tc .vmem S1x8192 .f32) (harg3 : arg3.IsWhole)
  (arg4 : Memref sig .tc .vmem S1x8192 .f32) (harg4 : arg4.IsWhole)

/-- One store through the whole scratch row covers every lane. -/
theorem cover_one (w : S1x8192.Idx → Elt Ideal .f32) (y : S1x8192.Idx) :
    ∃ p ∈ [(⟨Rect.unit (s := S1x8192) ![0, 0] S1x8192.size inb_S1x8192_S1x8192_0_0, w⟩ : View.Piece (Elt Ideal) S1x8192 .f32)], y ∈ p.1.set :=
  ⟨_, List.mem_singleton_self _, View.mem_set_unit_zero hz inb_S1x8192_S1x8192_0_0 y⟩

/-- One trip writes the whole scratch row: the update, by the trip's table chunk, of the row it finds there. -/
theorem trip_pieces (𝒱 : Variants) (bd : Option 𝒱.V) (v : Vec Ideal S1x8192 .i32) (X : BufTy.Contents (Elt Ideal) arg1.view.ty)
    (k : Fin k2_t1_loop.trips) (f : BufTy.Contents (Elt Ideal) arg4.view.ty) :
    tripL_k2_t1 (F := Ideal) 𝒱 c bd i arg1 harg1 arg2 harg2 arg3 harg3 arg4 harg4 v X k f
      = [⟨Rect.unit (s := S1x8192) ![0, 0] S1x8192.size inb_S1x8192_S1x8192_0_0,
          k2_pay2 (F := Ideal) v k (View.ld (arg1.view.read (Elt Ideal) X) (Rect.unit (s := S1x1280) (k2_off1 k) S1x128.size (k2_off1_inb k)))
            (arg4.view.read (Elt Ideal) f)⟩] := by
  unfold tripL_k2_t1 trip_k2_t1
  dsimp only
  simp only [View.readAt_eq_ld, View.ld_unit_zero (S := S1x8192) hz]

/-- What the scratch holds when the loop is entered: the zero row, stored over whatever was there. -/
def start : BufTy.Contents (Elt Ideal) arg4.view.ty :=
  arg4.view.writes (Elt Ideal) arg4.view.junk [(⟨Rect.unit (s := S1x8192) ![0, 0] S1x8192.size inb_S1x8192_S1x8192_0_0, k2_pay1 (F := Ideal)⟩ : View.Piece (Elt Ideal) S1x8192 .f32)]

/-- The scratch row after the first n trips, for relation words v and table row x. -/
def rowAfter (v : Vec Ideal S1x8192 .i32) (x : Vec Ideal S1x1280 .bf16) (n : ℕ) : Vec Ideal S1x8192 .f32 :=
  arg4.view.read (Elt Ideal) (arg4.view.writes (Elt Ideal) (start arg4)
    (pb_k2_t1 (F := Ideal) Variants.none c none i arg1 harg1 arg2 harg2 arg3 harg3 arg4 harg4 v (harg1.unread x) (start arg4) n))

/-- Before the first trip it is the zero row. -/
theorem rowAfter_zero (v : Vec Ideal S1x8192 .i32) (x : Vec Ideal S1x1280 .bf16) :
    rowAfter c i arg1 harg1 arg2 harg2 arg3 harg3 arg4 harg4 v x 0 = k2_pay1 (F := Ideal) := by
  unfold rowAfter start
  rw [pb_k2_t1.eq_1, View.writes_nil, View.read_writes_eq_canon _ _ _ (cover_one _), View.canon_unit_zero hz]

/-- Trip n updates it by the trip's table chunk. -/
theorem rowAfter_succ (v : Vec Ideal S1x8192 .i32) (x : Vec Ideal S1x1280 .bf16) (n : ℕ) (hn : n < k2_t1_loop.trips) :
    rowAfter c i arg1 harg1 arg2 harg2 arg3 harg3 arg4 harg4 v x (n + 1)
      = k2_pay2 (F := Ideal) v ⟨n, hn⟩ (View.ld x (Rect.unit (s := S1x1280) (k2_off1 ⟨n, hn⟩) S1x128.size (k2_off1_inb ⟨n, hn⟩)))
          (rowAfter c i arg1 harg1 arg2 harg2 arg3 harg3 arg4 harg4 v x n) := by
  unfold rowAfter
  rw [pb_k2_t1_succ (F := Ideal) Variants.none c none i arg1 harg1 arg2 harg2 arg3 harg3 arg4 harg4 v (harg1.unread x) (start arg4) ⟨n, hn⟩,
    View.writes_append, trip_pieces, View.read_writes_eq_canon _ _ _ (cover_one _), View.canon_unit_zero hz, harg1.read_unread]

/-- THE INVARIANT: after n trips lane j holds the lookup's summands over the first n chunks of the table. -/
theorem rowAfter_apply (v : Vec Ideal S1x8192 .i32) (x : Vec Ideal S1x1280 .bf16) (n : ℕ) (hn : n ≤ 10) (j : Fin 8192) :
    rowAfter c i arg1 harg1 arg2 harg2 arg3 harg3 arg4 harg4 v x n (ix2 (0 : Fin 1) j)
      = ∑ m ∈ Finset.range (128 * n), pick (fun r => x (ix2 (0 : Fin 1) r)) (v (ix2 (0 : Fin 1) j)) m := by
  induction n with
  | zero =>
    rw [rowAfter_zero, Nat.mul_zero, Finset.range_zero, Finset.sum_empty]
    unfold k2_pay1
    rw [shapeCast_self]
    exact Ideal.ofBits_zero_f32
  | succ n ih =>
    have hn' : n < k2_t1_loop.trips := by rw [trips_eq]; omega
    rw [rowAfter_succ c i arg1 harg1 arg2 harg2 arg3 harg3 arg4 harg4 v x n hn', pay_step_apply, ih (by omega), sum_pick_succ]
    refine congrArg (_ + ·) (Finset.sum_congr rfl fun r _ => ?_)
    have hr := r.isLt
    have hlt : 128 * n + r.val < 1280 := by omega
    rw [chunk_apply x ⟨n, hn'⟩ r hlt]
    unfold pick
    rw [dif_pos hlt]

/-- The block the body leaves is the scratch row after the last trip, capped at one. -/
theorem out_eq (x0 : Vec Ideal S1x1280 .bf16) (x1 : Vec Ideal S1x8192 .i32) :
    out2_A_2 (F := Ideal) c i arg1 harg1 arg2 harg2 arg3 harg3 arg4 harg4 x0 x1 = k2_pay3 (F := Ideal) (rowAfter c i arg1 harg1 arg2 harg2 arg3 harg3 arg4 harg4 x1 x0 k2_t1_loop.trips) := by
  unfold out2_A_2
  rw [View.read_writes_eq_canon _ _ _ (cover2_A_2 c i arg1 harg1 arg2 harg2 arg3 harg3 arg4 harg4 x0 x1)]
  unfold kernelRun2_A
  dsimp only
  sl_unfold_words
  rw [View.canon_unit_zero hz]
  simp only [View.readAt_eq_ld, harg2.read_unread, View.ld_unit_zero (S := S1x8192) hz, View.writes_append]
  rfl

end Run

/-- Lane j of the block the body leaves is the table row read at lane j's relation word, capped at one: the eight
    chunk products against the one-hot columns sum to the one entry the word names, or to nothing. -/
theorem out2_apply (c : Dev nD) (i : grid2.Coords) (arg1 : Memref sig .tc .vmem S1x1280 .bf16) (harg1 : arg1.IsWhole)
    (arg2 : Memref sig .tc .vmem S1x8192 .i32) (harg2 : arg2.IsWhole) (arg3 : Memref sig .tc .vmem S1x8192 .f32) (harg3 : arg3.IsWhole)
    (arg4 : Memref sig .tc .vmem S1x8192 .f32) (harg4 : arg4.IsWhole)
    (x0 : Vec Ideal S1x1280 .bf16) (x1 : Vec Ideal S1x8192 .i32) (j : Fin 8192) :
    out2_A_2 (F := Ideal) c i arg1 harg1 arg2 harg2 arg3 harg3 arg4 harg4 x0 x1 (ix2 (0 : Fin 1) j)
      = Cert.Spec.look 1280 (fun r => x0 (ix2 (0 : Fin 1) r)) (x1 (ix2 (0 : Fin 1) j)) := by
  rw [out_eq]
  show min (rowAfter c i arg1 harg1 arg2 harg2 arg3 harg3 arg4 harg4 x1 x0 k2_t1_loop.trips (ix2 (0 : Fin 1) j)) (Ideal.ofBits .f32 0x3F800000#32) = _
  rw [rowAfter_apply c i arg1 harg1 arg2 harg2 arg3 harg3 arg4 harg4 x1 x0 _ (le_of_eq trips_eq) j, trips_eq, show 128 * 10 = 1280 from rfl, sum_pick]
  rfl

end Cert.KernelIdeal.KBody2

end
-- ==== Proof.KCover2.lean ====
/- The third region's result row, lane by lane: the 245 grid points' blocks of 8192 lanes cover the row, and each
   block is the lookup of its lanes' words in the table row. -/
import proofs.«413616_j64639257805012_2_alg».proof.Proof.KDefs
import proofs.«413616_j64639257805012_2_alg».proof.Proof.KBody2
import Idealize.ShloMosaic.Lib.Pipeline.Value
import Idealize.ShloMosaic.Lib.ValueIdx

set_option maxRecDepth 16384

noncomputable section

open scoped BigOperators

namespace Cert.KernelIdeal.KCover2

open Cert.KernelIdeal Cert.KernelIdeal.Gen Cert.KernelIdeal.KDefs
open Idealize.ShloMosaic Idealize.ShloMosaic.TcCoe Idealize.ShloMosaic.ValueIdx Idealize.SL.Sem

variable (m : (ℓ : Loc nD τ sig) → Buf (Elt Ideal) ℓ) (ρ : Dev nD → PrngReg)

/-- The three index maps over the grid: the table window stays at block (0, 0); the word window and the result
    window are at block (0, t) at point t. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = t.val
    ∧ win2_2.index t (0 : Fin 2) = 0 ∧ win2_2.index t (1 : Fin 2) = t.val :=
  (by decide +kernel : ∀ t : Fin grid2.N, _)

/-- The table window's block at every point, read off any table row, is that row. -/
theorem tbl_read (T : Vec Ideal S1x1280 .bf16) (t : Fin cfg2.N) (x : S1x1280.Idx) :
    ((cfg2.win 0).blk t).view.read (Elt Ideal) T x = T x := by
  obtain ⟨e0, e1, -⟩ := idx_facts t
  rw [View.read_apply]
  show T _ = T _
  refine congrArg T (funext fun a => Fin.ext ?_)
  match a with
  | ⟨0, _⟩ => show win2_0.index t (0 : Fin 2) * 1 + 1 * (x 0).val = (x 0).val; rw [e0]; omega
  | ⟨1, _⟩ => show win2_0.index t (1 : Fin 2) * 1280 + 1 * (x 1).val = (x 1).val; rw [e1]; omega

/-- The word window's block at point t, read off any word row, is lanes 8192 t … 8192 t + 8191 of that row. -/
theorem words_read (W : Vec Ideal S1x2007040 .i32) (t : Fin cfg2.N) (x : S1x8192.Idx) (k : S1x2007040.Idx)
    (hk0 : (k 0).val = (x 0).val) (hk1 : (k 1).val = 8192 * t.val + (x 1).val) :
    ((cfg2.win 1).blk t).view.read (Elt Ideal) W x = W k := by
  obtain ⟨-, -, e0, e1, -⟩ := idx_facts t
  rw [View.read_apply]
  show W _ = W _
  refine congrArg W (funext fun a => Fin.ext ?_)
  match a with
  | ⟨0, _⟩ => show win2_1.index t (0 : Fin 2) * 1 + 1 * (x 0).val = (k 0).val; rw [e0, hk0]; omega
  | ⟨1, _⟩ => show win2_1.index t (1 : Fin 2) * 8192 + 1 * (x 1).val = (k 1).val; rw [e1, hk1]; omega

/-- The result window's block at point t, read off any result row, is lanes 8192 t … 8192 t + 8191 of that row. -/
theorem res_read (R : Vec Ideal S1x2007040 .f32) (t : Fin cfg2.N) (x : S1x8192.Idx) (k : S1x2007040.Idx)
    (hk0 : (k 0).val = (x 0).val) (hk1 : (k 1).val = 8192 * t.val + (x 1).val) :
    ((cfg2.win 2).blk t).view.read (Elt Ideal) R x = R k := by
  obtain ⟨-, -, -, -, e0, e1⟩ := idx_facts t
  rw [View.read_apply]
  show R _ = R _
  refine congrArg R (funext fun a => Fin.ext ?_)
  match a with
  | ⟨0, _⟩ => show win2_2.index t (0 : Fin 2) * 1 + 1 * (x 0).val = (k 0).val; rw [e0, hk0]; omega
  | ⟨1, _⟩ => show win2_2.index t (1 : Fin 2) * 8192 + 1 * (x 1).val = (k 1).val; rw [e1, hk1]; omega

/-- So the table block the body sees at every point is the table row the region finds. -/
theorem tbl_blk_apply (c : Dev nD) (t : Fin cfg2.N) (x : S1x1280.Idx) :
    (iblk2 (V14 m ρ) c 0 t : Vec Ideal S1x1280 .bf16) x = tblTg m ρ c x := by
  unfold iblk2
  exact tbl_read (tblTg m ρ c) t x

/-- And lane x of the word block the body sees at point t is lane 8192 t + x of the word row the region finds. -/
theorem words_blk_apply (c : Dev nD) (t : Fin cfg2.N) (x : S1x8192.Idx) (k : S1x2007040.Idx)
    (hk0 : (k 0).val = (x 0).val) (hk1 : (k 1).val = 8192 * t.val + (x 1).val) :
    (iblk2 (V14 m ρ) c 1 t : Vec Ideal S1x8192 .i32) x = wordsTg m ρ c k := by
  unfold iblk2
  exact words_read (wordsTg m ρ c) t x k hk0 hk1

/-- The whole result row as ONE function of the table row and the word row the region finds: a lane is the table row
    read at that lane's word, capped at one. -/
def Gres (c : Dev nD) : Vec Ideal S1x2007040 .f32 := fun y =>
  Cert.Spec.look 1280 (fun r => tblTg m ρ c (ix2 (0 : Fin 1) r)) (wordsTg m ρ c y)

/-- What point t writes back is block t of that row: the body's lane q is the lookup of the word block's lane q in
    the table block, the table block is the table row, and lane q of the word block and of the result block is lane
    8192 t + q of its row. -/
theorem flushed_eq (c : Dev nD) (t : Fin cfg2.N) :
    (dat2 (V14 m ρ) c).flushed 2 t = ((cfg2.win 2).blk t).view.read (Elt Ideal) (Gres m ρ c) := by
  show (cfg2.win 2).cut (grid2.coords t) ((dat2 (V14 m ρ) c).after 2 t) = _
  rw [after2_2]
  refine funext fun (y : S1x8192.Idx) => ?_
  obtain ⟨q, rfl⟩ : ∃ q : Fin 8192, y = ix2 (0 : Fin 1) q :=
    ⟨y 1, funext fun a => match a with
      | ⟨0, _⟩ => Fin.ext (by have h : (y 0).val < 1 := (y 0).isLt; show (y 0).val = 0; omega)
      | ⟨1, _⟩ => rfl⟩
  have hq : 8192 * t.val + q.val < 2007040 := by
    have ht : t.val < 245 := Nat.lt_of_lt_of_eq t.isLt N_2
    have := q.isLt; omega
  refine Eq.trans ?_ (res_read (Gres m ρ c) t (ix2 (0 : Fin 1) q) (ix2 (0 : Fin 1) ⟨8192 * t.val + q.val, hq⟩) rfl rfl).symm
  show outsAt2 (V14 m ρ) c t (ix2 (0 : Fin 1) q) = _
  unfold outsAt2
  refine (KBody2.out2_apply c (grid2.coords t) (ms2_0 t) (hs2_0 t) (ms2_1 t) (hs2_1 t) (ms2_2 t) (hs2_2 t) scM2_0
    (Memref.isWhole_whole _) (iblk2 (V14 m ρ) c 0 t) (iblk2 (V14 m ρ) c 1 t) q).trans ?_
  unfold Gres
  exact congrArg₂ (Cert.Spec.look 1280) (funext fun r => tbl_blk_apply m ρ c t (ix2 (0 : Fin 1) r))
    (words_blk_apply m ρ c t (ix2 (0 : Fin 1) q) (ix2 (0 : Fin 1) ⟨8192 * t.val + q.val, hq⟩) rfl rfl)

/-- A lane of the result row is in point t's block iff each coordinate is in the block's range on its axis. -/
theorem mem_blk (t : Fin cfg2.N) (i : S1x2007040.Idx) :
    i ∈ ((cfg2.win 2).blk t).view.set ↔ ∀ a : Fin 2, win2_2.index t a * S1x8192.size a ≤ (i a).val ∧ (i a).val < win2_2.index t a * S1x8192.size a + S1x8192.size a := by
  show i ∈ ((View.whole main_v17).slice (win2_2.rect t)).set ↔ _
  rw [View.set_slice_whole, Rect.mem_set_unit]
  exact Iff.rfl

/-- The blocks cover the row: lane j is in the block of point j / 8192, and every point writes its block back. -/
theorem cover (i : S1x2007040.Idx) :
    ∃ t : Fin cfg2.N, (cfg2.win 2).flush t = true ∧ i ∈ ((cfg2.win 2).blk t).view.set := by
  have hi0 : (i 0).val < 1 := (i 0).isLt
  have hi1 : (i 1).val < 2007040 := (i 1).isLt
  obtain ⟨t, ht⟩ : ∃ t : Fin cfg2.N, t.val = (i 1).val / 8192 :=
    ⟨⟨(i 1).val / 8192, Nat.lt_of_lt_of_eq (show (i 1).val / 8192 < 245 by omega) N_2.symm⟩, rfl⟩
  obtain ⟨-, -, -, -, e0, e1⟩ := idx_facts t
  refine ⟨t, flush2_2 t, ?_⟩
  rw [mem_blk]
  intro a
  match a with
  | ⟨0, _⟩ =>
    show win2_2.index t (0 : Fin 2) * 1 ≤ (i 0).val ∧ (i 0).val < win2_2.index t (0 : Fin 2) * 1 + 1
    rw [e0]; omega
  | ⟨1, _⟩ =>
    show win2_2.index t (1 : Fin 2) * 8192 ≤ (i 1).val ∧ (i 1).val < win2_2.index t (1 : Fin 2) * 8192 + 8192
    rw [e1, ht]; omega

/-- So the region leaves the whole-row function in its result array. -/
theorem final (c : Dev nD) : (dat2 (V14 m ρ) c).arrAt 2 cfg2.N = Gres m ρ c :=
  (dat2 (V14 m ρ) c).arrAt_eq_of_cover 2 (Gres m ρ c) (fun t _ => flushed_eq m ρ c t) cover

theorem resTg_apply (c : Dev nD) (j : Fin 2007040) :
    resTg m ρ c (ix2 (0 : Fin 1) j)
      = Cert.Spec.look 1280 (fun r => tblTg m ρ c (ix2 (0 : Fin 1) r)) (wordsTg m ρ c (ix2 (0 : Fin 1) j)) := by
  have h : resTg m ρ c = Gres m ρ c := (W15_arr m ρ c 2).trans (final m ρ c)
  rw [h]
  rfl

end Cert.KernelIdeal.KCover2

end
-- ==== Proof.SpecLook.lean ====
/- A table extended by zeros is looked up as the table itself: a word beyond the original entries reads zero either
   way. -/
import proofs.«413616_j64639257805012_2_alg».proof.Proof.Spec

noncomputable section

namespace Cert.Spec

/-- If T is tbl followed by zeros, looking a word up in T is looking it up in tbl. -/
theorem look_pad (n N : Nat) (hnN : n ≤ N) (tbl : Fin n → EReal) (T : Fin N → EReal)
    (hT : ∀ r : Fin N, T r = if h : r.val < n then tbl ⟨r.val, h⟩ else 0) (w : BitVec 32) :
    look N T w = look n tbl w := by
  unfold look
  congr 1
  by_cases h1 : w.toNat < N
  · rw [dif_pos h1, hT]
  · rw [dif_neg h1, dif_neg (by omega)]

end Cert.Spec

end
-- ==== Proof.KValue.lean ====
/- The kernel program's result is the common function of the extended first table, the second table and the two word
   vectors: each half of the result is a lookup region's row, each row the lookup of its words in a table row, each
   table row an attention vector followed by zeros, and a table followed by zeros is looked up as the table itself. -/
import proofs.«413616_j64639257805012_2_alg».proof.Proof.KDefs
import proofs.«413616_j64639257805012_2_alg».proof.Proof.KHostA
import proofs.«413616_j64639257805012_2_alg».proof.Proof.KHostB
import proofs.«413616_j64639257805012_2_alg».proof.Proof.KTail
import proofs.«413616_j64639257805012_2_alg».proof.Proof.KCover1
import proofs.«413616_j64639257805012_2_alg».proof.Proof.KCover2
import proofs.«413616_j64639257805012_2_alg».proof.Proof.SpecLook

set_option maxRecDepth 16384

noncomputable section

open scoped BigOperators

namespace Cert.KernelIdeal.KValue

open Cert.KernelIdeal Cert.KernelIdeal.Gen Cert.KernelIdeal.KDefs
open Idealize.ShloMosaic Idealize.ShloMosaic.TcCoe Idealize.ShloMosaic.ValueIdx Idealize.SL.Sem

variable (m : (ℓ : Loc nD τ sig) → Buf (Elt Ideal) ℓ) (ρ : Dev nD → PrngReg)

theorem result_eq (c : Dev nD) :
    result m ρ c = Cert.Spec.G (padA m c) (argB m c) (argRs m c) (argRt m c) := by
  funext i
  unfold Cert.Spec.G
  by_cases h : (i 0).val < 2000000
  · rw [dif_pos h, Cert.KernelIdeal.KTail.result_left m ρ c i h, Cert.KernelIdeal.KCover1.resSr_apply,
      Cert.KernelIdeal.KHostA.wordsSr_apply, dif_pos h]
    exact Cert.Spec.look_pad 1000 1024 (by decide) _ _ (fun r => by
      rw [Cert.KernelIdeal.KHostA.tblSr_apply]
      by_cases hr : r.val < 1000
      · rw [dif_pos hr, dif_pos hr, Cert.KernelIdeal.KHostA.outSr_apply]
      · rw [dif_neg hr, dif_neg hr]) _
  · rw [dif_neg h, Cert.KernelIdeal.KTail.result_right m ρ c i h, Cert.KernelIdeal.KCover2.resTg_apply,
      Cert.KernelIdeal.KHostB.wordsTg_apply, dif_pos (show (i 0).val - 2000000 < 2000000 by have h4 : (i 0).val < 4000000 := (i 0).isLt; omega)]
    exact Cert.Spec.look_pad 1200 1280 (by decide) _ _ (fun q => by
      rw [Cert.KernelIdeal.KHostB.tblTg_apply]
      by_cases hq : q.val < 1200
      · rw [dif_pos hq, dif_pos hq, Cert.KernelIdeal.KHostA.outTg_apply]
      · rw [dif_neg hq, dif_neg hq]) _

end Cert.KernelIdeal.KValue

end
-- ==== Proof.LibFlatGather.lean ====
/-
  A FLAT TABLE READ BY INDEX.

  `x[idx]` of a flat table `x : [N]` at a vector of `E` integer indices lowers to a gather whose start indices are laid
  out as `[E, 1]` (one index vector of length one per result element), the table's one axis collapsed (slice size 1) and
  named by the start index, and no offset axis: the result is `[E]`. This file reads that gather at one element,
  generically in the two sizes and in the element type: result element `e` is the table at the start index
  `idx[e, 0]`, read as a signed integer and clamped into `[0, N − 1]` (a gather clamps every start index so that its
  slice fits; a negative index reads entry `0`, one past the end reads the last entry).
-/
import Idealize.ShloMosaic.PureOps.Ideal
import Idealize.ShloMosaic.Lib.ValueIdx

noncomputable section

namespace Cert.LibFlatGather

open Idealize.ShloMosaic Idealize.ShloMosaic.ValueIdx

/-- The dimension numbers of `x[idx]` for a flat table `x : [N]` and start indices `idx : [E, 1]`, result `[E]`: no
    offset axis, the table's axis collapsed and the one axis the start index names, the index vector on axis 1 of the
    start indices. The conditions `wf` are decided on a program's literal sizes. -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the start index `idx[e, 0]`, read signed and clamped into
    `[0, N − 1]`. On the table's one axis the operand index is the clamped start: there is no batching axis, and the axis
    is collapsed, so it carries no offset. -/
theorem flatGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatGatherDims N E wf) x idx y
      = x (ix1 ⟨min (idx (ix2 (y 0) ⟨0, Nat.one_pos⟩)).toInt.toNat (N - 1), by omega⟩) := by
  unfold Host.gather
  congr 1
  funext a
  obtain rfl : a = 0 := Subsingleton.elim _ _
  refine Fin.ext ?_
  show (flatGatherDims N E wf).start y idx 0 + (flatGatherDims N E wf).batchCoord y 0
    + (flatGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  -- the start-indices index of result element `e` and index-vector position 0 is `[e, 0]`
  have hsi : (flatGatherDims N E wf).siIdx y ⟨List.idxOf (0 : Fin 1) (flatGatherDims N E wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

/-- The same for any record equal to `flatGatherDims N E wf`: a program prints its dimension numbers as a record of its
    own with literal sizes, which is this one by `rfl`. -/
theorem flatGather_apply_of {α : Type} {N E w : Nat} (hN : 0 < N)
    {wf : GatherDims.WF ⟨1, ![N]⟩ ⟨2, ![E, 1]⟩ ⟨1, ![E]⟩ [] [0] [] [0] [] 1 ![1]}
    (d : GatherDims ⟨1, ![N]⟩ ⟨2, ![E, 1]⟩ ⟨1, ![E]⟩) (hd : d = flatGatherDims N E wf)
    (x : (⟨1, ![N]⟩ : Shape).Idx → α) (idx : IVec ⟨2, ![E, 1]⟩ w) (y : (⟨1, ![E]⟩ : Shape).Idx) :
    Host.gather d x idx y
      = x (ix1 ⟨min (idx (ix2 (y 0) ⟨0, Nat.one_pos⟩)).toInt.toNat (N - 1), by omega⟩) := by
  subst hd; exact flatGather_apply hN wf x idx y

end Cert.LibFlatGather

end
-- ==== Proof.RefValue.lean ====
/- The reference's stages read as the common function: the two normalised tables, their similarity table, its row and
   column maxima, the two lookups (a word in range is its own index: the sign test and the clamp do nothing), the cap,
   and the two halves laid end to end. -/
import proofs.«413616_j64639257805012_2_alg».proof.Proof.RefRead
import proofs.«413616_j64639257805012_2_alg».proof.Proof.Spec
import proofs.«413616_j64639257805012_2_alg».proof.Proof.LibFlatGather
import proofs.«413616_j64639257805012_2_alg».proof.Proof.LibRowReduce
import Idealize.ShloMosaic.PureOps.Ideal.Laws
import Idealize.ShloMosaic.PureOps.Reduce
import Idealize.ShloMosaic.Lib.Pipeline.Value
import Idealize.ShloMosaic.Lib.StableHlo.Predicate
import Idealize.ShloMosaic.Lib.ValueIdx
import Idealize.ShloMosaic.Lib.ValueLayout

set_option maxRecDepth 16384

noncomputable section

open scoped BigOperators

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem

/-! ## The two row-normalised tables -/

/-- Row p's squares are read at (p, k'), whatever column the entry being normalised is in. -/
private theorem idx_rowA (p : Fin 1200) (k k' : Fin 256) :
    idx_main_call1_v1 (idx_main_call1_v2 (idx_main_v4 (ix2 p k))) k' = ix2 p k' :=
  funext fun a => Fin.ext (by match a with | ⟨0, _⟩ => rfl | ⟨1, _⟩ => rfl)

/-- Entry (p, k) of the first normalised table: the extended first table's entry over its row's length plus the constant. -/
theorem v5_at (x0 : (⟨S1000x256, .f32⟩ : BufTy).Contents (Elt Ideal)) (p : Fin 1200) (k : Fin 256) :
    val_main_v5 (F := Ideal) x0 (ix2 p k) = Cert.Spec.unit (val_main_v0 (F := Ideal) x0) p k := by
  rw [val_main_v5_apply, val_main_v4_apply, val_main_v3_apply, val_main_v1_apply, val_main_call1_v2_apply,
    val_main_call1_v1_apply, val_main_v2_apply, val_main_cst_apply, val_main_call1_cst_apply]
  simp only [val_main_call1_v0_apply, idx_rowA, Ideal.hostDivf_def, Ideal.hostUnary_sqrt_def, Ideal.addf_def,
    Ideal.mulf_def, Ideal.ofBits_def, Ideal.ofBits_zero_f32, zero_add]
  rfl

/-- The same reading of the second table's row. -/
private theorem idx_rowB (p : Fin 1200) (k k' : Fin 256) :
    idx_main_call2_v1 (idx_main_call2_v2 (idx_main_v9 (ix2 p k))) k' = ix2 p k' :=
  funext fun a => Fin.ext (by match a with | ⟨0, _⟩ => rfl | ⟨1, _⟩ => rfl)

/-- Entry (p, k) of the second normalised table. -/
theorem v10_at (x1 : (⟨S1200x256, .f32⟩ : BufTy).Contents (Elt Ideal)) (p : Fin 1200) (k : Fin 256) :
    val_main_v10 (F := Ideal) x1 (ix2 p k) = Cert.Spec.unit x1 p k := by
  rw [val_main_v10_apply, val_main_v9_apply, val_main_v8_apply, val_main_v6_apply, val_main_call2_v2_apply,
    val_main_call2_v1_apply, val_main_v7_apply, val_main_cst_0_apply, val_main_call2_cst_apply]
  simp only [val_main_call2_v0_apply, idx_rowB, Ideal.hostDivf_def, Ideal.hostUnary_sqrt_def, Ideal.addf_def,
    Ideal.mulf_def, Ideal.ofBits_def, Ideal.ofBits_zero_f32, zero_add]
  rfl

/-! ## The similarity table and its maxima -/

/-- Entry (p, q) of the product of the first normalised table with the transposed second. -/
theorem v12_at (x0 : (⟨S1000x256, .f32⟩ : BufTy).Contents (Elt Ideal)) (x1 : (⟨S1200x256, .f32⟩ : BufTy).Contents (Elt Ideal))
    (p q : Fin 1200) :
    val_main_v12 (F := Ideal) x0 x1 (ix2 p q) = Cert.Spec.sim (val_main_v0 (F := Ideal) x0) x1 p q := by
  rw [val_main_v12_apply]
  unfold Cert.Spec.sim
  refine Finset.sum_congr rfl fun k _ => ?_
  have el : lidx_main_v12 (ix2 p q) k = ix2 p k :=
    funext fun a => Fin.ext (by match a with | ⟨0, _⟩ => rfl | ⟨1, _⟩ => rfl)
  have er : idx_main_v11 (ridx_main_v12 (ix2 p q) k) = ix2 q k :=
    funext fun a => Fin.ext (by match a with | ⟨0, _⟩ => rfl | ⟨1, _⟩ => rfl)
  rw [el, v5_at, val_main_v11_apply, er, v10_at]

/-- The index that reduces into column q at position p of the reduced first axis is (p, q). -/
private theorem lift_col {R C : Nat} (h : (⟨2, ![R, C]⟩ : Shape).Reduces [0] ⟨1, ![C]⟩) (q : Fin C) (p : Fin R) :
    h.lift (ix1 q) p = ix2 p q := by
  funext a; apply Fin.ext
  match a with
  | ⟨0, _⟩ => rfl
  | ⟨1, _⟩ => rfl

/-- Entry p of the row maxima. -/
theorem v13_at (x0 : (⟨S1000x256, .f32⟩ : BufTy).Contents (Elt Ideal)) (x1 : (⟨S1200x256, .f32⟩ : BufTy).Contents (Elt Ideal))
    (p : Fin 1200) :
    val_main_v13 (F := Ideal) x0 x1 (ix1 p) = Cert.Spec.rowMax (val_main_v0 (F := Ideal) x0) x1 p := by
  have h : S1200x1200.Reduces [1] S1200 := by decide
  unfold val_main_v13
  refine (Host.reduce_eq_fold_single (FloatOps.maximumf (F := Ideal) (φ := .f32)) _ _ _ h _ (ix1 p)).trans ?_
  have hf : (val_main_v12 (F := Ideal) x0 x1 ∘ h.lift (ix1 p))
      = fun q => Cert.Spec.sim (val_main_v0 (F := Ideal) x0) x1 p q :=
    funext fun q => (congrArg (val_main_v12 (F := Ideal) x0 x1) (Cert.LibRowReduce.lift_row h p q)).trans (v12_at x0 x1 p q)
  rw [hf]
  rfl

/-- Entry q of the column maxima. -/
theorem v14_at (x0 : (⟨S1000x256, .f32⟩ : BufTy).Contents (Elt Ideal)) (x1 : (⟨S1200x256, .f32⟩ : BufTy).Contents (Elt Ideal))
    (q : Fin 1200) :
    val_main_v14 (F := Ideal) x0 x1 (ix1 q) = Cert.Spec.colMax (val_main_v0 (F := Ideal) x0) x1 q := by
  have h : S1200x1200.Reduces [0] S1200 := by decide
  unfold val_main_v14
  refine (Host.reduce_eq_fold_single (FloatOps.maximumf (F := Ideal) (φ := .f32)) _ _ _ h _ (ix1 q)).trans ?_
  have hf : (val_main_v12 (F := Ideal) x0 x1 ∘ h.lift (ix1 q))
      = fun p => Cert.Spec.sim (val_main_v0 (F := Ideal) x0) x1 p q :=
    funext fun p => (congrArg (val_main_v12 (F := Ideal) x0 x1) (lift_col h q p)).trans (v12_at x0 x1 p q)
  rw [hf]
  rfl

/-- Entry r of the first attention vector: the row maxima cut to their first 1000 entries. -/
theorem v15_at (x0 : (⟨S1000x256, .f32⟩ : BufTy).Contents (Elt Ideal)) (x1 : (⟨S1200x256, .f32⟩ : BufTy).Contents (Elt Ideal))
    (r : Fin 1000) :
    val_main_v15 (F := Ideal) x0 x1 (ix1 r) = Cert.Spec.attSr (val_main_v0 (F := Ideal) x0) x1 r := by
  have ei : idx_main_v15 (ix1 r) = ix1 (⟨r.val, Nat.lt_trans r.isLt (by decide)⟩ : Fin 1200) :=
    funext fun a => Fin.ext (by match a with | ⟨0, _⟩ => rfl)
  rw [val_main_v15_apply, ei, v13_at]
  rfl

/-! ## A relation word in range is its own index -/

/-- A word below 2³¹ is not negative, so the branch that adds the table's length is not taken. -/
private theorem start_of_small (w c : BitVec 32) (hw : w.toNat < 2 ^ 31) :
    Scalar.select (IntOp.cmpi .slt w 0#32) c w = w := by
  have h0 : ¬ IntOp.cmpi .slt w 0#32 = 1#1 := fun h =>
    absurd ((StableHlo.Predicate.slt_iff_toNat hw (by decide)).mp h) (by simp)
  rw [eq_zero_of_ne_one h0, select_zero]

/-- A word below n ≤ 2³¹, read signed and clamped into [0, n − 1], is its own value. -/
private theorem clamp_of_lt (w : BitVec 32) (n : Nat) (hn : n ≤ 2 ^ 31) (hw : w.toNat < n) :
    min w.toInt.toNat (n - 1) = w.toNat := by
  rw [StableHlo.Predicate.toInt_eq_toNat_of_lt (by omega), Int.toNat_natCast]
  exact Nat.min_eq_left (by omega)

/-- Entry e of the first lookup: the first attention vector at the word's own value. -/
theorem v22_at (x0 : (⟨S1000x256, .f32⟩ : BufTy).Contents (Elt Ideal)) (x1 : (⟨S1200x256, .f32⟩ : BufTy).Contents (Elt Ideal))
    (x2 : (⟨S2000000, .i32⟩ : BufTy).Contents (Elt Ideal)) (h2 : ∀ i, (x2 i).toNat < 1000) (e : Fin 2000000) :
    val_main_v22 (F := Ideal) x0 x1 x2 (ix1 e)
      = Cert.Spec.attSr (val_main_v0 (F := Ideal) x0) x1 ⟨(x2 (ix1 e)).toNat, h2 (ix1 e)⟩ := by
  unfold val_main_v22
  refine (Cert.LibFlatGather.flatGather_apply_of (N := 1000) (E := 2000000) (w := 32) (by decide)
    gather_S1000_S2000000x1_S2000000_n_0_n_n_0_1_1 rfl _ _ (ix1 e)).trans ?_
  have ei : idx_main_v21 (ix2 ((ix1 e : S2000000.Idx) 0) ⟨0, Nat.one_pos⟩) = ix1 e :=
    funext fun a => Fin.ext (by match a with | ⟨0, _⟩ => rfl)
  have hw : val_main_v21 (F := Ideal) x2 (ix2 ((ix1 e : S2000000.Idx) 0) ⟨0, Nat.one_pos⟩) = x2 (ix1 e) := by
    rw [val_main_v21_apply, val_main_v20_apply, val_main_v17_apply, val_main_v16_apply, val_main_c_3_apply, ei]
    exact start_of_small _ _ (Nat.lt_trans (h2 _) (by decide))
  refine Eq.trans ?_ (v15_at x0 x1 _)
  refine congrArg (val_main_v15 (F := Ideal) x0 x1) (congrArg (ix1 (n := 1000)) (Fin.ext ?_))
  show min (val_main_v21 (F := Ideal) x2 (ix2 ((ix1 e : S2000000.Idx) 0) ⟨0, Nat.one_pos⟩)).toInt.toNat (1000 - 1)
    = (x2 (ix1 e)).toNat
  rw [hw]
  exact clamp_of_lt _ 1000 (by decide) (h2 _)

/-- Entry e of the second lookup: the column maxima at the word's own value. -/
theorem v31_at (x0 : (⟨S1000x256, .f32⟩ : BufTy).Contents (Elt Ideal)) (x1 : (⟨S1200x256, .f32⟩ : BufTy).Contents (Elt Ideal))
    (x3 : (⟨S2000000, .i32⟩ : BufTy).Contents (Elt Ideal)) (h3 : ∀ i, (x3 i).toNat < 1200) (e : Fin 2000000) :
    val_main_v31 (F := Ideal) x0 x1 x3 (ix1 e)
      = Cert.Spec.colMax (val_main_v0 (F := Ideal) x0) x1 ⟨(x3 (ix1 e)).toNat, h3 (ix1 e)⟩ := by
  unfold val_main_v31
  refine (Cert.LibFlatGather.flatGather_apply_of (N := 1200) (E := 2000000) (w := 32) (by decide)
    gather_S1200_S2000000x1_S2000000_n_0_n_n_0_1_1 rfl _ _ (ix1 e)).trans ?_
  have ei : idx_main_v30 (ix2 ((ix1 e : S2000000.Idx) 0) ⟨0, Nat.one_pos⟩) = ix1 e :=
    funext fun a => Fin.ext (by match a with | ⟨0, _⟩ => rfl)
  have hw : val_main_v30 (F := Ideal) x3 (ix2 ((ix1 e : S2000000.Idx) 0) ⟨0, Nat.one_pos⟩) = x3 (ix1 e) := by
    rw [val_main_v30_apply, val_main_v29_apply, val_main_v26_apply, val_main_v25_apply, val_main_c_6_apply, ei]
    exact start_of_small _ _ (Nat.lt_trans (h3 _) (by decide))
  refine Eq.trans ?_ (v14_at x0 x1 _)
  refine congrArg (val_main_v14 (F := Ideal) x0 x1) (congrArg (ix1 (n := 1200)) (Fin.ext ?_))
  show min (val_main_v30 (F := Ideal) x3 (ix2 ((ix1 e : S2000000.Idx) 0) ⟨0, Nat.one_pos⟩)).toInt.toNat (1200 - 1)
    = (x3 (ix1 e)).toNat
  rw [hw]
  exact clamp_of_lt _ 1200 (by decide) (h3 _)

/-! ## The two halves laid end to end -/

/-- With every relation word in its table's range the reference's result is the common function of the extended first
    table, the second table and the two word vectors. -/
theorem val_eq_G (x0 : (⟨S1000x256, .f32⟩ : BufTy).Contents (Elt Ideal)) (x1 : (⟨S1200x256, .f32⟩ : BufTy).Contents (Elt Ideal))
    (x2 x3 : (⟨S2000000, .i32⟩ : BufTy).Contents (Elt Ideal))
    (h2 : ∀ i, (x2 i).toNat < 1000) (h3 : ∀ i, (x3 i).toNat < 1200) :
    val_main_v34 (F := Ideal) x0 x1 x2 x3 = Cert.Spec.G (val_main_v0 (F := Ideal) x0) x1 x2 x3 := by
  funext i
  unfold val_main_v34 Cert.Spec.G
  by_cases h : (i 0).val < 2000000
  · rw [dif_pos h]
    refine (concatenate_pair_apply_left (t := S4000000) (s₁ := S2000000) (s₂ := S2000000) (0 : Fin 1) _ _ _ i rfl
      (ix1 (⟨(i 0).val, h⟩ : Fin 2000000)) (fun b => ?_)).trans ?_
    · match b with
      | ⟨0, _⟩ => rfl
    rw [val_main_v24_apply, v22_at x0 x1 x2 h2, val_main_v23_apply, val_main_cst_5_apply]
    unfold Cert.Spec.look
    rw [dif_pos (h2 _)]
    rfl
  · rw [dif_neg h]
    have hi : (i 0).val < 4000000 := (i 0).isLt
    refine (concatenate_pair_apply_right (t := S4000000) (s₁ := S2000000) (s₂ := S2000000) (0 : Fin 1) _ _ _ i rfl rfl
      (ix1 (⟨(i 0).val - 2000000, by omega⟩ : Fin 2000000))
      (fun b hb => absurd (Subsingleton.elim _ _) hb) ?_).trans ?_
    · show (i 0).val - 2000000 + 2000000 = (i 0).val
      omega
    rw [val_main_v33_apply, v31_at x0 x1 x3 h3, val_main_v32_apply, val_main_cst_8_apply]
    unfold Cert.Spec.look
    rw [dif_pos (h3 _)]
    rfl

end Cert.ReferenceIdeal.RefValue

end
-- ==== Proof.PreRange.lean ====
/- What the precondition says of the two relation-word vectors: every word of the first is below 1000 and every word of
   the second below 1200, as unsigned values (a word that is non-negative and below the bound as a signed integer). -/
import proofs.«413616_j64639257805012_2_alg».proof.Pre_finite_inputs
import proofs.«413616_j64639257805012_2_alg».proof.Proof.Gen.Pre_finite_inputs
import Idealize.ShloMosaic.Lib.ReduceAll
import Idealize.ShloMosaic.Lib.StableHlo.Predicate

noncomputable section

namespace Cert.PreRange

open Cert.Pre_finite_inputs
open Idealize.ShloMosaic

variable [Cert.Pre_finite_inputs.Facts] {F : FTy → Type} [FloatOps F]

/-- The scalar shape has one index. -/
private instance : Subsingleton S_.Idx := ⟨fun a b => funext fun d => d.elim0⟩

/-- A word that is non-negative and below `n` as a signed integer, with `n` below 2³¹, is below `n` as an unsigned value:
    a non-negative signed reading has the top bit clear, so both readings agree. -/
private theorem toNat_lt_of_signed (w : BitVec 32) (n : Nat) (hn : n < 2 ^ 31)
    (h0 : IntOp.cmpi .sge w (0#32) = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have h32 := w.isLt
  unfold BitVec.toInt at h0 h1
  split_ifs at h0 h1 <;> omega

theorem range_of_pre (x0 : FVec F S1000x256 .f32) (x1 : FVec F S1200x256 .f32) (x2 x3 : IVec S2000000 32) (x4 x5 : IVec S2x2000000 32)
    (h : Cert.Pre_finite_inputs.fn (F := F) x0 x1 x2 x3 x4 x5 = fun _ => 1#1) :
    (∀ i, (x2 i).toNat < 1000) ∧ (∀ i, (x3 i).toNat < 1200) := by
  -- the precondition's one word is the conjunction of six tests; the last four are the range tests
  have e := congrFun h (fun a => a.elim0)
  unfold Cert.Pre_finite_inputs.fn Cert.Pre_finite_inputs.fn_part1 at e
  dsimp only at e
  simp only [andi] at e
  rw [IntOp.andi_eq_one, IntOp.andi_eq_one, IntOp.andi_eq_one, IntOp.andi_eq_one] at e
  obtain ⟨⟨⟨⟨-, e2lo⟩, e2hi⟩, e3lo⟩, e3hi⟩ := e
  -- each test is an all-reduce by `and`: it holds at every index
  have a2lo := fun i => Host.reduce_andi_all _ _ _ _ _ e2lo i
  have a2hi := fun i => Host.reduce_andi_all _ _ _ _ _ e2hi i
  have a3lo := fun i => Host.reduce_andi_all _ _ _ _ _ e3lo i
  have a3hi := fun i => Host.reduce_andi_all _ _ _ _ _ e3hi i
  -- at an index a test compares the word with the broadcast constant
  simp only [cmpi, broadcastInDim, constantI] at a2lo a2hi a3lo a3hi
  exact ⟨fun i => toNat_lt_of_signed _ 1000 (by decide) (a2lo i) (a2hi i),
    fun i => toNat_lt_of_signed _ 1200 (by decide) (a3lo i) (a3hi i)⟩

end Cert.PreRange

end
-- ==== Proof.lean ====
/-
  The kernel computes, for each edge of two graphs, an attention weight looked up by the edge's relation word and capped
  at one; the weights are the row maxima (first graph) and column maxima (second graph) of the cosine-similarity table of
  two relation tables, the first extended by zero rows to the second's length. The reference computes the same table on
  the host and reads it by a gather.

  At the ideal instance both programs compute ONE function of the extended first table, the second table and the two
  word vectors (`Cert.Spec.G`). The kernel's lookup is a product with a one-hot column summed over the table in chunks;
  over the extended reals x · 1 = x and x · 0 = 0 hold for every x, so that sum is the one entry the word names, and a
  word that names no entry sums to zero. The reference wraps a negative word and clamps one past the end; where every
  word is in its table's range (the precondition's four range conjuncts) neither does anything, and the gather reads
  the entry the word names. No finiteness of the table entries is used.

  The three frames are the programs' runs with the result dropped; the idealization rewrote nothing, so `preserves` is
  trivial.
-/
import proofs.«413616_j64639257805012_2_alg».proof.Defs
import proofs.«413616_j64639257805012_2_alg».proof.Proof.Gen.Kernel
import proofs.«413616_j64639257805012_2_alg».proof.Proof.Gen.Kernel.Frame
import proofs.«413616_j64639257805012_2_alg».proof.Proof.Gen.KernelIdeal
import proofs.«413616_j64639257805012_2_alg».proof.Proof.Gen.KernelIdeal.Frame
import proofs.«413616_j64639257805012_2_alg».proof.Proof.Gen.ReferenceIdeal
import proofs.«413616_j64639257805012_2_alg».proof.Proof.Gen.Pre_finite_inputs
import proofs.«413616_j64639257805012_2_alg».proof.Proof.KRun
import proofs.«413616_j64639257805012_2_alg».proof.Proof.KValue
import proofs.«413616_j64639257805012_2_alg».proof.Proof.RefRun
import proofs.«413616_j64639257805012_2_alg».proof.Proof.RefRead
import proofs.«413616_j64639257805012_2_alg».proof.Proof.RefValue
import proofs.«413616_j64639257805012_2_alg».proof.Proof.PreRange
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the common function of the arguments in their result array: the kernel by its run
    and the reading of its three regions, the reference by its run and the reading of its stages, where the
    precondition puts every relation word in its table's range. -/
theorem algebraic : Cert.algebraic_KernelIdeal_ReferenceIdeal := by
  intro m ρ m' ρ' hpre hagree
  refine ⟨fun c => Cert.Spec.G (Cert.KernelIdeal.KDefs.padA m c) (Cert.KernelIdeal.KDefs.argB m c)
    (Cert.KernelIdeal.KDefs.argRs m c) (Cert.KernelIdeal.KDefs.argRt m c), ?_, ?_⟩
  · exact (θ_run Cert.KernelIdeal.defs _ _).mono
      (fun _ h c => ⟨(h c).1.trans (Cert.KernelIdeal.KValue.result_eq m ρ c), (h c).2⟩)
      (Cert.KernelIdeal.GenV.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h2, h3⟩ := Cert.PreRange.range_of_pre _ _ _ _ _ _ (hpre c)
    rw [Cert.ReferenceIdeal.ReadP.val_main_v34_eq, (hagree c).1, (hagree c).2.1, (hagree c).2.2.1, (hagree c).2.2.2.1]
    exact Cert.ReferenceIdeal.RefValue.val_eq_G _ _ _ _ h2 h3

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
